-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S10000x512 .f32) (main_arg1 : FVec F S10000x10000 .f32) (main_arg2 : FVec F S512x512 .f32) (main_arg3 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S1x512 : Shape := ⟨2, ![1, 512]⟩
abbrev S200x10000 : Shape := ⟨2, ![200, 10000]⟩
abbrev S400x512 : Shape := ⟨2, ![400, 512]⟩
abbrev S200x512 : Shape := ⟨2, ![200, 512]⟩
abbrev S200 : Shape := ⟨1, ![200]⟩
abbrev S200x1 : Shape := ⟨2, ![200, 1]⟩

abbrev nBuf : Space → Nat
  | .hbm => 9
  | .vmem => 11
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S10000x512, .bf16⟩
  | .hbm, ⟨5, _⟩ => ⟨S512x512, .f32⟩
  | .hbm, ⟨6, _⟩ => ⟨S512x512, .bf16⟩
  | .hbm, ⟨7, _⟩ => ⟨S1x512, .f32⟩
  | .hbm, ⟨8, _⟩ => ⟨S10000x512, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x512, .bf16⟩
  | .local _ .vmem, ⟨5, _⟩ => ⟨S400x512, .bf16⟩
  | .local _ .vmem, ⟨6, _⟩ => ⟨S400x512, .bf16⟩
  | .local _ .vmem, ⟨7, _⟩ => ⟨S512x512, .bf16⟩
  | .local _ .vmem, ⟨8, _⟩ => ⟨S1x512, .f32⟩
  | .local _ .vmem, ⟨9, _⟩ => ⟨S400x512, .f32⟩
  | .local _ .vmem, ⟨10, _⟩ => ⟨S400x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  transposes_S512x512_S512x512_1_0 : S512x512.Transposes [1, 0] S512x512
  shapeCasts_S512_S1x512 : S512.ShapeCasts S1x512
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S200x10000_S200x10000_0_0 : ∀ a, (![0, 0] : Fin 2 → Nat) a + S200x10000.size a ≤ S200x10000.size a
  h_S200x10000 : 0 < S200x10000.numel
  inb_S400x512_S200x512_0_0 : ∀ a, (![0, 0] : Fin 2 → Nat) a + S200x512.size a ≤ S400x512.size a
  h_S200x512 : 0 < S200x512.numel
  shapeCasts_S200x512_S200x512 : S200x512.ShapeCasts S200x512
  broadcasts_S1x512_S200x512 : S1x512.Broadcasts S200x512
  reduces_S200x512_S200 : S200x512.Reduces [1] S200
  shapeCasts_S200_S200x1 : S200.ShapeCasts S200x1
  broadcasts_S200x1_S200x512 : S200x1.Broadcasts S200x512
  inb_S400x512_S200x512_200_0 : ∀ a, (![200, 0] : Fin 2 → Nat) a + S200x512.size a ≤ S400x512.size a
  dot_S200x10000_S10000x512_S200x512_1_0_0_1_n_n_wf : DotDims.WF S200x10000 S10000x512 S200x512 [1] [0] [0] [1] [] []
  dot_S200x512_S512x512_S200x512_1_0_0_1_n_n_wf : DotDims.WF S200x512 S512x512 S200x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x512.size a ≤ S10000x512.size a
  hwx0_2 : ∀ i : grid0.Coords, EltTy.bits .bf16 = 32 ∨ (Rect.block (s := S10000x512) S10000x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x512.size a ≤ S10000x512.size a
  hwx0_3 : ∀ i : grid0.Coords, EltTy.bits .bf16 = 32 ∨ (Rect.block (s := S10000x512) S400x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x512.size a ≤ S10000x512.size a
  hwx0_6 : ∀ i : grid0.Coords, EltTy.bits .f32 = 32 ∨ (Rect.block (s := S10000x512) S400x512.size (cc0_transform_6 i) (hinb0_6 i)).WholeWords (EltTy.packing .f32)

variable [Facts₀]

def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf
def dot_S200x512_S512x512_S200x512_1_0_0_1_n_n : DotDims S200x512 S512x512 S200x512 where
  lhsContracting := [1]
  rhsContracting := [0]
  lhsNonContracting := [0]
  rhsNonContracting := [1]
  lhsBatch := []
  rhsBatch := []
  wf := dot_S200x512_S512x512_S200x512_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S10000x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S400x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S_ : Shape := ⟨0, ![]⟩
abbrev S1x512 : Shape := ⟨2, ![1, 512]⟩
abbrev S10000 : Shape := ⟨1, ![10000]⟩
abbrev S10000x1 : Shape := ⟨2, ![10000, 1]⟩

abbrev nBuf : Space → Nat
  | .hbm => 31
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S10000x10000, .i32⟩
  | .hbm, ⟨5, _⟩ => ⟨S10000x10000, .i32⟩
  | .hbm, ⟨6, _⟩ => ⟨S_, .i32⟩
  | .hbm, ⟨7, _⟩ => ⟨S10000x10000, .i32⟩
  | .hbm, ⟨8, _⟩ => ⟨S10000x10000, .i32⟩
  | .hbm, ⟨9, _⟩ => ⟨S10000x10000, .i1⟩
  | .hbm, ⟨10, _⟩ => ⟨S10000x10000, .f32⟩
  | .hbm, ⟨11, _⟩ => ⟨S10000x10000, .f32⟩
  | .hbm, ⟨12, _⟩ => ⟨S10000x512, .f32⟩
  | .hbm, ⟨13, _⟩ => ⟨S512x512, .f32⟩
  | .hbm, ⟨14, _⟩ => ⟨S10000x512, .f32⟩
  | .hbm, ⟨15, _⟩ => ⟨S1x512, .f32⟩
  | .hbm, ⟨16, _⟩ => ⟨S10000x512, .f32⟩
  | .hbm, ⟨17, _⟩ => ⟨S10000x512, .f32⟩
  | .hbm, ⟨18, _⟩ => ⟨S_, .f32⟩
  | .hbm, ⟨19, _⟩ => ⟨S10000x512, .f32⟩
  | .hbm, ⟨20, _⟩ => ⟨S10000x512, .f32⟩
  | .hbm, ⟨21, _⟩ => ⟨S10000x512, .f32⟩
  | .hbm, ⟨22, _⟩ => ⟨S_, .f32⟩
  | .hbm, ⟨23, _⟩ => ⟨S10000, .f32⟩
  | .hbm, ⟨24, _⟩ => ⟨S10000x1, .f32⟩
  | .hbm, ⟨25, _⟩ => ⟨S10000x1, .f32⟩
  | .hbm, ⟨26, _⟩ => ⟨S_, .f32⟩
  | .hbm, ⟨27, _⟩ => ⟨S10000x1, .f32⟩
  | .hbm, ⟨28, _⟩ => ⟨S10000x1, .f32⟩
  | .hbm, ⟨29, _⟩ => ⟨S10000x512, .f32⟩
  | .hbm, ⟨30, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_v13 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  transposes_S512x512_S512x512_1_0 : S512x512.Transposes [1, 0] S512x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  reducesTo_S10000x512_S10000_d1 : S10000x512.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x512_0_1 : S10000x1.BroadcastsInDim S10000x512 (![0, 1] : Fin 2 → Fin S10000x512.rank)
  dot_S10000x10000_S10000x512_S10000x512_1_0_0_1_n_n_wf : DotDims.WF S10000x10000 S10000x512 S10000x512 [1] [0] [0] [1] [] []
  dot_S10000x512_S512x512_S10000x512_1_0_0_1_n_n_wf : DotDims.WF S10000x512 S512x512 S10000x512 [1] [0] [0] [1] [] []

variable [Facts₀]

def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.Bits.Entry.lean ====
/-
  The program up to its one kernel region, and what the region finds.

  @main is four host operations — the node features cast to bf16, the weight matrix transposed and cast,
  the bias reshaped to one row — followed by the kernel region. This module names the TensorCore buffers'
  contents when the region is entered (the host operations applied to the launch memory), shows that the
  four argument arrays are then still as launched, and names the block of each window's array that a grid
  point works on.
-/
import proofs.«116606_g8117488189613_cont_9to1_m_843_11_alg».proof.Proof.Gen.Kernel.Launch
import proofs.«116606_g8117488189613_cont_9to1_m_843_11_alg».proof.Proof.Gen.Kernel.Points
import Idealize.ShloMosaic.Lib.Pipeline.Frame
import Idealize.ShloMosaic.Lib.Pipeline.FrameBody

set_option maxRecDepth 16384

noncomputable section

namespace Cert.Kernel.Sage

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.Kernel Cert.Kernel.Gen

variable {F : FTy → Type} [FloatOps F]

variable (m : (ℓ : Loc nD τ sig) → Buf (Elt F) ℓ)

/-- Core `c`'s TensorCore buffers when the region is entered: the launch memory after the four host operations. -/
abbrev entryMem (c : Dev nD) (b : Ref sig .tc) : Buf (Elt F) ((c : Thread nD τ).loc b) :=
  StableHlo.after hostOps0 (fun b => m (c, b)) b

/-- None of the four host operations allocates. -/
theorem hostOps0_fresh : (hostOps0 : List (HloOp τ sig (Elt F))).Forall fun op => op.fresh = ∅ := by
  simp only [List.Forall]; repeat' constructor

/-- @main is the host operations and then the region. -/
theorem main_to_region (𝒱₀ : Variants) :
    Pipeline.HMain (Ix := Unit) (Name := ℕ) (U := UR sig nD τ) (Lvl := ℕ) cfgs 0 defs₀ 𝒱₀ m (main (F := F)) (entryMem m) :=
  Pipeline.hmain_prefix cfgs 0 defs₀ 𝒱₀ m main hostOps0 hostOps0_sub hostOps0_fresh main_chain

/-- A buffer none of the host operations writes is found as launched. -/
theorem entryMem_of_unwritten (c : Dev nD) (b : Ref sig .tc)
    (h : ∀ op ∈ (hostOps0 : List (HloOp τ sig (Elt F))), Proc.devRef .tc b ∉ op.writes) :
    entryMem m c b = m ((c : Thread nD τ).loc b) :=
  StableHlo.after_of_forall_not_mem (b := Proc.devRef .tc b) _ _ h

theorem entryMem_arg0 (c : Dev nD) : entryMem m c main_arg0 = m ((c : Thread nD τ).loc main_arg0) :=
  entryMem_of_unwritten m c main_arg0 (List.forall_iff_forall_mem.mp (by
    simp only [hostOps0, List.Forall, StableHlo.unary_writes, StableHlo.reshape_writes, Finset.mem_singleton]
    repeat' apply And.intro
    all_goals exact StableHlo.devRef_ne_of_ne (by decide)))
theorem entryMem_arg1 (c : Dev nD) : entryMem m c main_arg1 = m ((c : Thread nD τ).loc main_arg1) :=
  entryMem_of_unwritten m c main_arg1 (List.forall_iff_forall_mem.mp (by
    simp only [hostOps0, List.Forall, StableHlo.unary_writes, StableHlo.reshape_writes, Finset.mem_singleton]
    repeat' apply And.intro
    all_goals exact StableHlo.devRef_ne_of_ne (by decide)))
theorem entryMem_arg2 (c : Dev nD) : entryMem m c main_arg2 = m ((c : Thread nD τ).loc main_arg2) :=
  entryMem_of_unwritten m c main_arg2 (List.forall_iff_forall_mem.mp (by
    simp only [hostOps0, List.Forall, StableHlo.unary_writes, StableHlo.reshape_writes, Finset.mem_singleton]
    repeat' apply And.intro
    all_goals exact StableHlo.devRef_ne_of_ne (by decide)))
theorem entryMem_arg3 (c : Dev nD) : entryMem m c main_arg3 = m ((c : Thread nD τ).loc main_arg3) :=
  entryMem_of_unwritten m c main_arg3 (List.forall_iff_forall_mem.mp (by
    simp only [hostOps0, List.Forall, StableHlo.unary_writes, StableHlo.reshape_writes, Finset.mem_singleton]
    repeat' apply And.intro
    all_goals exact StableHlo.devRef_ne_of_ne (by decide)))

/-- Window `w`'s block at grid point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entryMem m c (Pipeline.arrRef spec0 w))

end Cert.Kernel.Sage

end
-- ==== Proof.Bits.Body.lean ====
/-
  One run of the kernel body on its seven staging buffers.

  The body reads the two 200-row slabs of the adjacency matrix, the resident node features, the 400 rows of
  node features that belong to this block (the diagonal term of adj + I), the transposed weights and the bias,
  and stores the two 200-row halves of the normalized output block. What the output buffer holds afterwards is
  named here as one function of the six input buffers' contents: the lower half laid over the upper half.
-/
import proofs.«116606_g8117488189613_cont_9to1_m_843_11_alg».proof.Proof.Gen.Kernel.Launch
import proofs.«116606_g8117488189613_cont_9to1_m_843_11_alg».proof.Proof.Gen.Kernel.Skeleton
import proofs.«116606_g8117488189613_cont_9to1_m_843_11_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes -/

abbrev slabAll : Rect S200x10000 := Rect.unit (s := S200x10000) ![0, 0] S200x10000.size inb_S200x10000_S200x10000_0_0
abbrev featAll : Rect S10000x512 := Rect.unit (s := S10000x512) ![0, 0] S10000x512.size inb_S10000x512_S10000x512_0_0
abbrev weightAll : Rect S512x512 := Rect.unit (s := S512x512) ![0, 0] S512x512.size inb_S512x512_S512x512_0_0
abbrev biasAll : Rect S1x512 := Rect.unit (s := S1x512) ![0, 0] S1x512.size inb_S1x512_S1x512_0_0
/-- Rows 0 to 199 of a 400-row block. -/
abbrev upperHalf : Rect S400x512 := Rect.unit (s := S400x512) ![0, 0] S200x512.size inb_S400x512_S200x512_0_0
/-- Rows 200 to 399 of a 400-row block. -/
abbrev lowerHalf : Rect S400x512 := Rect.unit (s := S400x512) ![200, 0] S200x512.size inb_S400x512_S200x512_200_0

/-! ## What the body leaves in the output buffer -/

/-- The output buffer after the body, from the six input buffers: the second store (rows 200 to 399, from the
    second adjacency slab) over the first (rows 0 to 199, from the first slab). -/
def outBlock (a0 a1 : Vec F S200x10000 .f32) (xs : Vec F S10000x512 .bf16) (xr : Vec F S400x512 .bf16)
    (wt : Vec F S512x512 .bf16) (bias : Vec F S1x512 .f32) : Vec F S400x512 .f32 :=
  View.canon
    [⟨lowerHalf, k0_pay1 (k0_pay6 (View.ld xs featAll) (View.ld wt weightAll) (View.ld bias biasAll) (View.ld a1 slabAll) (View.ld xr lowerHalf))⟩,
     ⟨upperHalf, k0_pay5 (View.ld xs featAll) (View.ld wt weightAll) (View.ld bias biasAll) (View.ld a0 slabAll) (View.ld xr upperHalf)⟩]

/-- The two halves tile the 400-row block, so every index lies in one of them. -/
theorem halves_cover (p0 p1 : Vec F S200x512 .f32) (y : S400x512.Idx) :
    ∃ pc ∈ ([⟨lowerHalf, p0⟩, ⟨upperHalf, p1⟩] : List (View.Piece (Elt F) S400x512 .f32)), y ∈ pc.1.set :=
  View.cover_of_tiled [⟨lowerHalf, p0⟩, ⟨upperHalf, p1⟩] S200x512.size (by rfl) y

/-! ## The body's triple -/

set_option maxHeartbeats 1000000 in
/-- The kernel body on whole staging memrefs, the six inputs' at contents `a0 … bias` and the output's at
    anything, runs to the continuation with the inputs' unchanged and the output's at `outBlock` of them. -/
theorem sound_kernel (c : Dev nD) (E : Set ℕ) (i : grid0.Coords)
    (arg1 : Memref sig .tc .vmem S200x10000 .f32) (harg1 : arg1.IsWhole)
    (arg2 : Memref sig .tc .vmem S200x10000 .f32) (harg2 : arg2.IsWhole)
    (arg3 : Memref sig .tc .vmem S10000x512 .bf16) (harg3 : arg3.IsWhole)
    (arg4 : Memref sig .tc .vmem S400x512 .bf16) (harg4 : arg4.IsWhole)
    (arg5 : Memref sig .tc .vmem S512x512 .bf16) (harg5 : arg5.IsWhole)
    (arg6 : Memref sig .tc .vmem S1x512 .f32) (harg6 : arg6.IsWhole)
    (arg7 : Memref sig .tc .vmem S400x512 .f32) (harg7 : arg7.IsWhole)
    (a0 a1 : Vec F S200x10000 .f32) (xs : Vec F S10000x512 .bf16) (xr : Vec F S400x512 .bf16)
    (wt : Vec F S512x512 .bf16) (bias : Vec F S1x512 .f32) (K : PUnit → sProp 𝕄) :
    iprop(owns (c : Thread nD τ) arg1 fullShare a0 ∗ owns (c : Thread nD τ) arg2 fullShare a1
        ∗ owns (c : Thread nD τ) arg3 fullShare xs ∗ owns (c : Thread nD τ) arg4 fullShare xr
        ∗ owns (c : Thread nD τ) arg5 fullShare wt ∗ owns (c : Thread nD τ) arg6 fullShare bias
        ∗ (∃ d, owns (c : Thread nD τ) arg7 fullShare d)
        ∗ (iprop(owns (c : Thread nD τ) arg1 fullShare a0 ∗ owns (c : Thread nD τ) arg2 fullShare a1
            ∗ owns (c : Thread nD τ) arg3 fullShare xs ∗ owns (c : Thread nD τ) arg4 fullShare xr
            ∗ owns (c : Thread nD τ) arg5 fullShare wt ∗ owns (c : Thread nD τ) arg6 fullShare bias
            ∗ owns (c : Thread nD τ) arg7 fullShare (outBlock a0 a1 xs xr wt bias)) -∗ K ⟨⟩))
      ⊢ wp frame (wpE (defs₀ (F := F)) Variants.none c none) E
          (cc0__graphsage_body i arg1 harg1 arg2 harg2 arg3 harg3 arg4 harg4 arg5 harg5 arg6 harg6 arg7 harg7) K := by
  simp only [cc0__graphsage_body_eq_skeleton]; unfold cc0__graphsage_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (halves_cover _ _)

end Cert.Kernel.Sage

end
-- ==== Proof.Bits.Data.lean ====
/-
  The proof data of the one pipeline, and the body obligation at every grid point.

  The arrays are what the region finds. After the body at point `t` each of the six input buffers still holds its
  block and the output buffer holds `outBlock` of those blocks. The adjacency matrix is read through two windows
  and so is the bf16 copy of the node features: each such pair shares its array, one window holding the left half
  of the array's full share and the other the right half.
-/
import proofs.«116606_g8117488189613_cont_9to1_m_843_11_alg».proof.Proof.Bits.Entry
import proofs.«116606_g8117488189613_cont_9to1_m_843_11_alg».proof.Proof.Bits.Body

set_option maxRecDepth 16384

noncomputable section

namespace Cert.Kernel.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The share of its array each input window holds: the two windows on the adjacency matrix split it, the two on
    the bf16 node features split it, every other window's array is its own. -/
def winShare : Fin cfg0.W → PosShare TreeShare
  | ⟨0, _⟩ => fullShare.left
  | ⟨1, _⟩ => fullShare.right
  | ⟨2, _⟩ => fullShare.left
  | ⟨3, _⟩ => fullShare.right
  | ⟨4, _⟩ => fullShare
  | ⟨5, _⟩ => fullShare
  | ⟨6, _⟩ => fullShare

/-- The proof data on core `c`. The region invariant is the core's scoped buffers that are no staging buffer. -/
def dats (_ : Fin 1) (c : Dev nD) : Dat τ (Elt F) Unit ℕ (UR sig nD τ) ℕ cfg0 c where
  A w := entryMem m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => outBlock (blockAt m c 0 t) (blockAt m c 1 t) (blockAt m c 2 t) (blockAt m c 3 t) (blockAt m c 4 t) (blockAt m c 5 t)
  Φ _ := Pipeline.scopedRest (Ix := Unit) (Name := ℕ) (U := UR sig nD τ) (Lvl := ℕ) (Val := Elt F) spec0 c
  q := winShare
  owed _ := 0

theorem dats_A (c : Dev nD) (w : Fin cfg0.W) : (dats m 0 c).A w = entryMem m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t
    = outBlock (blockAt m c 0 t) (blockAt m c 1 t) (blockAt m c 2 t) (blockAt m c 3 t) (blockAt m c 4 t) (blockAt m c 5 t) := by
  dsimp only [dats]

/-! ## What the body finds in each input buffer: the window's block, fetched at this point or kept from an earlier one -/

theorem before_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [dats_A]; try rfl) t d).trans
    (by unfold Dat.fetched Dat.blockOf blockAt; rw [dats_A]; try rfl)
theorem before_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [dats_A]; try rfl) t d).trans
    (by unfold Dat.fetched Dat.blockOf blockAt; rw [dats_A]; try rfl)
theorem before_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [dats_A]; try rfl) t d).trans
    (by unfold Dat.fetched Dat.blockOf blockAt; rw [dats_A]; try rfl)
theorem before_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [dats_A]; try rfl) t d).trans
    (by unfold Dat.fetched Dat.blockOf blockAt; rw [dats_A]; try rfl)
theorem before_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [dats_A]; try rfl) t d).trans
    (by unfold Dat.fetched Dat.blockOf blockAt; rw [dats_A]; try rfl)
theorem before_5 (c : Dev nD) (t : Fin cfg0.N) (d) : (dats m 0 c).before 5 t d = blockAt m c 5 t :=
  ((dats m 0 c).before_in_eq_fetched 5 rfl (fun _ => rfl) (fun _ _ _ => rfl)
    (fun t => by rw [after_5]; unfold Dat.blockOf blockAt; rw [dats_A]; try rfl) t d).trans
    (by unfold Dat.fetched Dat.blockOf blockAt; rw [dats_A]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the body's triple applies; the invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Sage

end
-- ==== Proof.Bits.Split.lean ====
/-
  How the buffers behind the windows' arrays, each held whole when the region is entered, are dealt to the seven
  windows: the adjacency matrix's full share is halved between the two windows that read its two slabs, the bf16
  node features' between the resident window and the window of the block's own rows; the weights, the bias and the
  output array each go whole to their one window.
-/
import proofs.«116606_g8117488189613_cont_9to1_m_843_11_alg».proof.Proof.Bits.Data

set_option maxRecDepth 16384

noncomputable section

namespace Cert.Kernel.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (arrBufs)

variable (m : (ℓ : Loc nD τ sig) → Buf (Elt F) ℓ)

/-- The five distinct buffers behind the seven windows' arrays. -/
theorem arrBufs_listed (c : Dev nD) (V : (b : Ref sig .tc) → Buf (Elt F) ((c.tc : Thread nD τ).loc b)) :
    (arrBufs (Ix := Unit) (Name := ℕ) (U := UR sig nD τ) (Lvl := ℕ) spec0 c V : sProp 𝕄)
      = iprop((((c.tc : Thread nD τ).loc main_arg1) ↦{fullShare} V main_arg1)
          ∗ (((c.tc : Thread nD τ).loc main_call0_v0) ↦{fullShare} V main_call0_v0)
          ∗ (((c.tc : Thread nD τ).loc main_call0_v2) ↦{fullShare} V main_call0_v2)
          ∗ (((c.tc : Thread nD τ).loc main_call0_v3) ↦{fullShare} V main_call0_v3)
          ∗ (((c.tc : Thread nD τ).loc main_v0) ↦{fullShare} V main_v0)) := by
  unfold Pipeline.arrBufs
  exact bigSep_eq_bigSepL_of_eq [main_arg1, main_call0_v0, main_call0_v2, main_call0_v3, main_v0] (by decide) (by decide) _

/-- The arrays as the pipeline holds them at entry, from the buffers behind them. -/
theorem arrays_at_entry (c : Dev nD) :
    (arrBufs (Ix := Unit) (Name := ℕ) (U := UR sig nD τ) (Lvl := ℕ) spec0 c (entryMem m c) : sProp 𝕄)
      ⊢ (dats m 0 c).arrays ((dats m 0 c).arrAt · 0) := by
  rw [arrBufs_listed]
  unfold Dat.arrays
  rw [bigSep_W0]
  have e0 : (View.loc c.tc (cfg0.win 0).arr.view ↦[(cfg0.win 0).arr.view.set]{(dats m 0 c).share 0} (fun x => (dats m 0 c).arrAt x 0) 0 : sProp 𝕄)
      = ((c.tc : Thread nD τ).loc main_arg1 ↦{fullShare.left} entryMem m c main_arg1) := by
    rw [(arr_whole0 0).set_eq_univ]; rfl
  have e1 : (View.loc c.tc (cfg0.win 1).arr.view ↦[(cfg0.win 1).arr.view.set]{(dats m 0 c).share 1} (fun x => (dats m 0 c).arrAt x 0) 1 : sProp 𝕄)
      = ((c.tc : Thread nD τ).loc main_arg1 ↦{fullShare.right} entryMem m c main_arg1) := by
    rw [(arr_whole0 1).set_eq_univ]; rfl
  have e2 : (View.loc c.tc (cfg0.win 2).arr.view ↦[(cfg0.win 2).arr.view.set]{(dats m 0 c).share 2} (fun x => (dats m 0 c).arrAt x 0) 2 : sProp 𝕄)
      = ((c.tc : Thread nD τ).loc main_call0_v0 ↦{fullShare.left} entryMem m c main_call0_v0) := by
    rw [(arr_whole0 2).set_eq_univ]; rfl
  have e3 : (View.loc c.tc (cfg0.win 3).arr.view ↦[(cfg0.win 3).arr.view.set]{(dats m 0 c).share 3} (fun x => (dats m 0 c).arrAt x 0) 3 : sProp 𝕄)
      = ((c.tc : Thread nD τ).loc main_call0_v0 ↦{fullShare.right} entryMem m c main_call0_v0) := by
    rw [(arr_whole0 3).set_eq_univ]; rfl
  have e4 : (View.loc c.tc (cfg0.win 4).arr.view ↦[(cfg0.win 4).arr.view.set]{(dats m 0 c).share 4} (fun x => (dats m 0 c).arrAt x 0) 4 : sProp 𝕄)
      = ((c.tc : Thread nD τ).loc main_call0_v2 ↦{fullShare} entryMem m c main_call0_v2) := by
    rw [(arr_whole0 4).set_eq_univ]; rfl
  have e5 : (View.loc c.tc (cfg0.win 5).arr.view ↦[(cfg0.win 5).arr.view.set]{(dats m 0 c).share 5} (fun x => (dats m 0 c).arrAt x 0) 5 : sProp 𝕄)
      = ((c.tc : Thread nD τ).loc main_call0_v3 ↦{fullShare} entryMem m c main_call0_v3) := by
    rw [(arr_whole0 5).set_eq_univ]; rfl
  have e6 : (View.loc c.tc (cfg0.win 6).arr.view ↦[(cfg0.win 6).arr.view.set]{(dats m 0 c).share 6} (fun x => (dats m 0 c).arrAt x 0) 6 : sProp 𝕄)
      = ((c.tc : Thread nD τ).loc main_v0 ↦{fullShare} entryMem m c main_v0) := by
    rw [(arr_whole0 6).set_eq_univ]; rfl
  rw [e0, e1, e2, e3, e4, e5, e6]
  iintro ⟨Hadj, Hx, Hw, Hb, Hout⟩
  ihave Hadj2 := (pointsTo_share (PosShare.mem_left_op_right fullShare)).1 $$ Hadj
  icases Hadj2 with ⟨Hadj0, Hadj1⟩
  ihave Hx2 := (pointsTo_share (PosShare.mem_left_op_right fullShare)).1 $$ Hx
  icases Hx2 with ⟨Hx0, Hx1⟩
  isplitl [Hadj0]; · iexact Hadj0
  isplitl [Hadj1]; · iexact Hadj1
  isplitl [Hx0]; · iexact Hx0
  isplitl [Hx1]; · iexact Hx1
  isplitl [Hw]; · iexact Hw
  isplitl [Hb]; · iexact Hb
  iexact Hout

end Cert.Kernel.Sage

end
-- ==== Proof.Bits.Run.lean ====
/-
  The run of the whole program and its frame.

  The launch theorem for a pipeline whose windows may share arrays is applied to the proof data: the region
  invariant is the core's scoped buffers that are no staging buffer, the unscoped buffers that are no window's
  array (three of the four arguments among them) pass by the region untouched, and the arrays are dealt to the
  windows as `arrays_at_entry` says. Every weakly fair execution then terminates without fault with each window's
  array at what the library computes from the proof data and every other unscoped buffer as the region found it;
  the four argument arrays in particular end as launched.
-/
import proofs.«116606_g8117488189613_cont_9to1_m_843_11_alg».proof.Proof.Bits.Split

set_option maxRecDepth 16384

noncomputable section

namespace Cert.Kernel.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (arrBufs unscopedRest restRefs)

variable (m : (ℓ : Loc nD τ sig) → Buf (Elt F) ℓ) (ρ : Dev nD → PrngReg)

/-- What the run ends in: the windows' arrays at the library's account of the write-backs, everything else that is
    unscoped and no window's array as the region found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ restRefs sig spec0, r.2.mem ((c.tc : Thread nD τ).loc b) = entryMem m c b

set_option backward.isDefEq.respectTransparency.types false in
/-- From any memory with zero counters, every weakly fair execution of @main terminates, nothing faulting, in a state
    satisfying `RunPost`. -/
theorem run_main : θ_run defs (onTc (τ := τ) (main (F := F))) ⟨m, fun _ => 0, ρ⟩ (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := entryMem m) (hmain := main_to_region m Variants.none)
    (hsplit := arrays_at_entry m)
    (X := fun _ => iprop(emp)) (Y := fun _ => iprop(emp))
    (Z := fun c => unscopedRest (Ix := Unit) (Name := ℕ) (U := UR sig nD τ) (Lvl := ℕ) spec0 c (entryMem m c))
    (hX := fun c => by
      iintro H
      isplitr; · iempintro
      iexact H)
    (hin := fun c => by
      dsimp only [dats]
      iintro ⟨-, H⟩
      iexact H)
    (hout := fun c => by
      dsimp only [dats]
      iintro H
      isplitr; · iempintro
      iexact H)
    (QY := fun c s => ∀ b ∈ restRefs sig spec0, s.mem ((c.tc : Thread nD τ).loc b) = entryMem m c b)
    (hY := fun c s' => by
      iintro ⟨-, HU, HSI⟩
      unfold Pipeline.unscopedRest
      imodintro
      iapply (pointsTo_read_all (restRefs sig spec0) (fun b => (c.tc : Thread nD τ).loc b) (entryMem m c) s')
      isplitl [HU] <;> iassumption)
    (hQ := fun s h => h)

/-- The frame: the program runs to the end and its four argument arrays end as launched. `main_arg1` is a window's
    array (an input: the write-backs never touch it); the other three are no window's array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (entryMem_arg0 m c),
     ((h c).1 0).trans (((dats m 0 c).arrAt_in 0 rfl _).trans ((dats_A m c 0).trans (entryMem_arg1 m c))),
     ((h c).2 main_arg2 (Pipeline.mem_restRefs_of main_arg2 (by decide) (by decide))).trans (entryMem_arg2 m c),
     ((h c).2 main_arg3 (Pipeline.mem_restRefs_of main_arg3 (by decide) (by decide))).trans (entryMem_arg3 m c)⟩)
    (run_main m ρ)

end Cert.Kernel.Sage

end
-- ==== Proof.Ideal.Entry.lean ====
/-
  The program up to its one kernel region, and what the region finds.

  @main is four host operations — the node features cast to bf16, the weight matrix transposed and cast,
  the bias reshaped to one row — followed by the kernel region. This module names the TensorCore buffers'
  contents when the region is entered (the host operations applied to the launch memory), shows that the
  four argument arrays are then still as launched, and names the block of each window's array that a grid
  point works on.
-/
import proofs.«116606_g8117488189613_cont_9to1_m_843_11_alg».proof.Proof.Gen.KernelIdeal.Launch
import proofs.«116606_g8117488189613_cont_9to1_m_843_11_alg».proof.Proof.Gen.KernelIdeal.Points
import Idealize.ShloMosaic.Lib.Pipeline.Frame
import Idealize.ShloMosaic.Lib.Pipeline.FrameBody

set_option maxRecDepth 16384

noncomputable section

namespace Cert.KernelIdeal.Sage

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- Core `c`'s TensorCore buffers when the region is entered: the launch memory after the four host operations. -/
abbrev entryMem (c : Dev nD) (b : Ref sig .tc) : Buf (Elt F) ((c : Thread nD τ).loc b) :=
  StableHlo.after hostOps0 (fun b => m (c, b)) b

/-- None of the four host operations allocates. -/
theorem hostOps0_fresh : (hostOps0 : List (HloOp τ sig (Elt F))).Forall fun op => op.fresh = ∅ := by
  simp only [List.Forall]; repeat' constructor

/-- @main is the host operations and then the region. -/
theorem main_to_region (𝒱₀ : Variants) :
    Pipeline.HMain (Ix := Unit) (Name := ℕ) (U := UR sig nD τ) (Lvl := ℕ) cfgs 0 defs₀ 𝒱₀ m (main (F := F)) (entryMem m) :=
  Pipeline.hmain_prefix cfgs 0 defs₀ 𝒱₀ m main hostOps0 hostOps0_sub hostOps0_fresh main_chain

/-- A buffer none of the host operations writes is found as launched. -/
theorem entryMem_of_unwritten (c : Dev nD) (b : Ref sig .tc)
    (h : ∀ op ∈ (hostOps0 : List (HloOp τ sig (Elt F))), Proc.devRef .tc b ∉ op.writes) :
    entryMem m c b = m ((c : Thread nD τ).loc b) :=
  StableHlo.after_of_forall_not_mem (b := Proc.devRef .tc b) _ _ h

theorem entryMem_arg0 (c : Dev nD) : entryMem m c main_arg0 = m ((c : Thread nD τ).loc main_arg0) :=
  entryMem_of_unwritten m c main_arg0 (List.forall_iff_forall_mem.mp (by
    simp only [hostOps0, List.Forall, StableHlo.unary_writes, StableHlo.reshape_writes, Finset.mem_singleton]
    repeat' apply And.intro
    all_goals exact StableHlo.devRef_ne_of_ne (by decide)))
theorem entryMem_arg1 (c : Dev nD) : entryMem m c main_arg1 = m ((c : Thread nD τ).loc main_arg1) :=
  entryMem_of_unwritten m c main_arg1 (List.forall_iff_forall_mem.mp (by
    simp only [hostOps0, List.Forall, StableHlo.unary_writes, StableHlo.reshape_writes, Finset.mem_singleton]
    repeat' apply And.intro
    all_goals exact StableHlo.devRef_ne_of_ne (by decide)))
theorem entryMem_arg2 (c : Dev nD) : entryMem m c main_arg2 = m ((c : Thread nD τ).loc main_arg2) :=
  entryMem_of_unwritten m c main_arg2 (List.forall_iff_forall_mem.mp (by
    simp only [hostOps0, List.Forall, StableHlo.unary_writes, StableHlo.reshape_writes, Finset.mem_singleton]
    repeat' apply And.intro
    all_goals exact StableHlo.devRef_ne_of_ne (by decide)))
theorem entryMem_arg3 (c : Dev nD) : entryMem m c main_arg3 = m ((c : Thread nD τ).loc main_arg3) :=
  entryMem_of_unwritten m c main_arg3 (List.forall_iff_forall_mem.mp (by
    simp only [hostOps0, List.Forall, StableHlo.unary_writes, StableHlo.reshape_writes, Finset.mem_singleton]
    repeat' apply And.intro
    all_goals exact StableHlo.devRef_ne_of_ne (by decide)))

/-- Window `w`'s block at grid point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entryMem m c (Pipeline.arrRef spec0 w))

end Cert.KernelIdeal.Sage

end
-- ==== Proof.Ideal.Body.lean ====
/-
  One run of the kernel body on its seven staging buffers.

  The body reads the two 200-row slabs of the adjacency matrix, the resident node features, the 400 rows of
  node features that belong to this block (the diagonal term of adj + I), the transposed weights and the bias,
  and stores the two 200-row halves of the normalized output block. What the output buffer holds afterwards is
  named here as one function of the six input buffers' contents: the lower half laid over the upper half.
-/
import proofs.«116606_g8117488189613_cont_9to1_m_843_11_alg».proof.Proof.Gen.KernelIdeal.Launch
import proofs.«116606_g8117488189613_cont_9to1_m_843_11_alg».proof.Proof.Gen.KernelIdeal.Skeleton
import proofs.«116606_g8117488189613_cont_9to1_m_843_11_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes -/

abbrev slabAll : Rect S200x10000 := Rect.unit (s := S200x10000) ![0, 0] S200x10000.size inb_S200x10000_S200x10000_0_0
abbrev featAll : Rect S10000x512 := Rect.unit (s := S10000x512) ![0, 0] S10000x512.size inb_S10000x512_S10000x512_0_0
abbrev weightAll : Rect S512x512 := Rect.unit (s := S512x512) ![0, 0] S512x512.size inb_S512x512_S512x512_0_0
abbrev biasAll : Rect S1x512 := Rect.unit (s := S1x512) ![0, 0] S1x512.size inb_S1x512_S1x512_0_0
/-- Rows 0 to 199 of a 400-row block. -/
abbrev upperHalf : Rect S400x512 := Rect.unit (s := S400x512) ![0, 0] S200x512.size inb_S400x512_S200x512_0_0
/-- Rows 200 to 399 of a 400-row block. -/
abbrev lowerHalf : Rect S400x512 := Rect.unit (s := S400x512) ![200, 0] S200x512.size inb_S400x512_S200x512_200_0

/-! ## What the body leaves in the output buffer -/

/-- The output buffer after the body, from the six input buffers: the second store (rows 200 to 399, from the
    second adjacency slab) over the first (rows 0 to 199, from the first slab). -/
def outBlock (a0 a1 : Vec F S200x10000 .f32) (xs : Vec F S10000x512 .bf16) (xr : Vec F S400x512 .bf16)
    (wt : Vec F S512x512 .bf16) (bias : Vec F S1x512 .f32) : Vec F S400x512 .f32 :=
  View.canon
    [⟨lowerHalf, k0_pay1 (k0_pay6 (View.ld xs featAll) (View.ld wt weightAll) (View.ld bias biasAll) (View.ld a1 slabAll) (View.ld xr lowerHalf))⟩,
     ⟨upperHalf, k0_pay5 (View.ld xs featAll) (View.ld wt weightAll) (View.ld bias biasAll) (View.ld a0 slabAll) (View.ld xr upperHalf)⟩]

/-- The two halves tile the 400-row block, so every index lies in one of them. -/
theorem halves_cover (p0 p1 : Vec F S200x512 .f32) (y : S400x512.Idx) :
    ∃ pc ∈ ([⟨lowerHalf, p0⟩, ⟨upperHalf, p1⟩] : List (View.Piece (Elt F) S400x512 .f32)), y ∈ pc.1.set :=
  View.cover_of_tiled [⟨lowerHalf, p0⟩, ⟨upperHalf, p1⟩] S200x512.size (by rfl) y

/-! ## The body's triple -/

set_option maxHeartbeats 1000000 in
/-- The kernel body on whole staging memrefs, the six inputs' at contents `a0 … bias` and the output's at
    anything, runs to the continuation with the inputs' unchanged and the output's at `outBlock` of them. -/
theorem sound_kernel (c : Dev nD) (E : Set ℕ) (i : grid0.Coords)
    (arg1 : Memref sig .tc .vmem S200x10000 .f32) (harg1 : arg1.IsWhole)
    (arg2 : Memref sig .tc .vmem S200x10000 .f32) (harg2 : arg2.IsWhole)
    (arg3 : Memref sig .tc .vmem S10000x512 .bf16) (harg3 : arg3.IsWhole)
    (arg4 : Memref sig .tc .vmem S400x512 .bf16) (harg4 : arg4.IsWhole)
    (arg5 : Memref sig .tc .vmem S512x512 .bf16) (harg5 : arg5.IsWhole)
    (arg6 : Memref sig .tc .vmem S1x512 .f32) (harg6 : arg6.IsWhole)
    (arg7 : Memref sig .tc .vmem S400x512 .f32) (harg7 : arg7.IsWhole)
    (a0 a1 : Vec F S200x10000 .f32) (xs : Vec F S10000x512 .bf16) (xr : Vec F S400x512 .bf16)
    (wt : Vec F S512x512 .bf16) (bias : Vec F S1x512 .f32) (K : PUnit → sProp 𝕄) :
    iprop(owns (c : Thread nD τ) arg1 fullShare a0 ∗ owns (c : Thread nD τ) arg2 fullShare a1
        ∗ owns (c : Thread nD τ) arg3 fullShare xs ∗ owns (c : Thread nD τ) arg4 fullShare xr
        ∗ owns (c : Thread nD τ) arg5 fullShare wt ∗ owns (c : Thread nD τ) arg6 fullShare bias
        ∗ (∃ d, owns (c : Thread nD τ) arg7 fullShare d)
        ∗ (iprop(owns (c : Thread nD τ) arg1 fullShare a0 ∗ owns (c : Thread nD τ) arg2 fullShare a1
            ∗ owns (c : Thread nD τ) arg3 fullShare xs ∗ owns (c : Thread nD τ) arg4 fullShare xr
            ∗ owns (c : Thread nD τ) arg5 fullShare wt ∗ owns (c : Thread nD τ) arg6 fullShare bias
            ∗ owns (c : Thread nD τ) arg7 fullShare (outBlock a0 a1 xs xr wt bias)) -∗ K ⟨⟩))
      ⊢ wp frame (wpE (defs₀ (F := F)) Variants.none c none) E
          (cc0__graphsage_body i arg1 harg1 arg2 harg2 arg3 harg3 arg4 harg4 arg5 harg5 arg6 harg6 arg7 harg7) K := by
  simp only [cc0__graphsage_body_eq_skeleton]; unfold cc0__graphsage_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (halves_cover _ _)

end Cert.KernelIdeal.Sage

end
-- ==== Proof.Ideal.Data.lean ====
/-
  The proof data of the one pipeline, and the body obligation at every grid point.

  The arrays are what the region finds. After the body at point `t` each of the six input buffers still holds its
  block and the output buffer holds `outBlock` of those blocks. The adjacency matrix is read through two windows
  and so is the bf16 copy of the node features: each such pair shares its array, one window holding the left half
  of the array's full share and the other the right half.
-/
import proofs.«116606_g8117488189613_cont_9to1_m_843_11_alg».proof.Proof.Ideal.Entry
import proofs.«116606_g8117488189613_cont_9to1_m_843_11_alg».proof.Proof.Ideal.Body

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The share of its array each input window holds: the two windows on the adjacency matrix split it, the two on
    the bf16 node features split it, every other window's array is its own. -/
def winShare : Fin cfg0.W → PosShare TreeShare
  | ⟨0, _⟩ => fullShare.left
  | ⟨1, _⟩ => fullShare.right
  | ⟨2, _⟩ => fullShare.left
  | ⟨3, _⟩ => fullShare.right
  | ⟨4, _⟩ => fullShare
  | ⟨5, _⟩ => fullShare
  | ⟨6, _⟩ => fullShare

/-- The proof data on core `c`. The region invariant is the core's scoped buffers that are no staging buffer. -/
def dats (_ : Fin 1) (c : Dev nD) : Dat τ (Elt F) Unit ℕ (UR sig nD τ) ℕ cfg0 c where
  A w := entryMem m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => outBlock (blockAt m c 0 t) (blockAt m c 1 t) (blockAt m c 2 t) (blockAt m c 3 t) (blockAt m c 4 t) (blockAt m c 5 t)
  Φ _ := Pipeline.scopedRest (Ix := Unit) (Name := ℕ) (U := UR sig nD τ) (Lvl := ℕ) (Val := Elt F) spec0 c
  q := winShare
  owed _ := 0

theorem dats_A (c : Dev nD) (w : Fin cfg0.W) : (dats m 0 c).A w = entryMem m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t
    = outBlock (blockAt m c 0 t) (blockAt m c 1 t) (blockAt m c 2 t) (blockAt m c 3 t) (blockAt m c 4 t) (blockAt m c 5 t) := by
  dsimp only [dats]

/-! ## What the body finds in each input buffer: the window's block, fetched at this point or kept from an earlier one -/

theorem before_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [dats_A]; try rfl) t d).trans
    (by unfold Dat.fetched Dat.blockOf blockAt; rw [dats_A]; try rfl)
theorem before_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [dats_A]; try rfl) t d).trans
    (by unfold Dat.fetched Dat.blockOf blockAt; rw [dats_A]; try rfl)
theorem before_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [dats_A]; try rfl) t d).trans
    (by unfold Dat.fetched Dat.blockOf blockAt; rw [dats_A]; try rfl)
theorem before_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [dats_A]; try rfl) t d).trans
    (by unfold Dat.fetched Dat.blockOf blockAt; rw [dats_A]; try rfl)
theorem before_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [dats_A]; try rfl) t d).trans
    (by unfold Dat.fetched Dat.blockOf blockAt; rw [dats_A]; try rfl)
theorem before_5 (c : Dev nD) (t : Fin cfg0.N) (d) : (dats m 0 c).before 5 t d = blockAt m c 5 t :=
  ((dats m 0 c).before_in_eq_fetched 5 rfl (fun _ => rfl) (fun _ _ _ => rfl)
    (fun t => by rw [after_5]; unfold Dat.blockOf blockAt; rw [dats_A]; try rfl) t d).trans
    (by unfold Dat.fetched Dat.blockOf blockAt; rw [dats_A]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the body's triple applies; the invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Sage

end
-- ==== Proof.Ideal.Split.lean ====
/-
  How the buffers behind the windows' arrays, each held whole when the region is entered, are dealt to the seven
  windows: the adjacency matrix's full share is halved between the two windows that read its two slabs, the bf16
  node features' between the resident window and the window of the block's own rows; the weights, the bias and the
  output array each go whole to their one window.
-/
import proofs.«116606_g8117488189613_cont_9to1_m_843_11_alg».proof.Proof.Ideal.Data

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (arrBufs)

variable (m : (ℓ : Loc nD τ sig) → Buf (Elt F) ℓ)

/-- The five distinct buffers behind the seven windows' arrays. -/
theorem arrBufs_listed (c : Dev nD) (V : (b : Ref sig .tc) → Buf (Elt F) ((c.tc : Thread nD τ).loc b)) :
    (arrBufs (Ix := Unit) (Name := ℕ) (U := UR sig nD τ) (Lvl := ℕ) spec0 c V : sProp 𝕄)
      = iprop((((c.tc : Thread nD τ).loc main_arg1) ↦{fullShare} V main_arg1)
          ∗ (((c.tc : Thread nD τ).loc main_call0_v0) ↦{fullShare} V main_call0_v0)
          ∗ (((c.tc : Thread nD τ).loc main_call0_v2) ↦{fullShare} V main_call0_v2)
          ∗ (((c.tc : Thread nD τ).loc main_call0_v3) ↦{fullShare} V main_call0_v3)
          ∗ (((c.tc : Thread nD τ).loc main_v0) ↦{fullShare} V main_v0)) := by
  unfold Pipeline.arrBufs
  exact bigSep_eq_bigSepL_of_eq [main_arg1, main_call0_v0, main_call0_v2, main_call0_v3, main_v0] (by decide) (by decide) _

/-- The arrays as the pipeline holds them at entry, from the buffers behind them. -/
theorem arrays_at_entry (c : Dev nD) :
    (arrBufs (Ix := Unit) (Name := ℕ) (U := UR sig nD τ) (Lvl := ℕ) spec0 c (entryMem m c) : sProp 𝕄)
      ⊢ (dats m 0 c).arrays ((dats m 0 c).arrAt · 0) := by
  rw [arrBufs_listed]
  unfold Dat.arrays
  rw [bigSep_W0]
  have e0 : (View.loc c.tc (cfg0.win 0).arr.view ↦[(cfg0.win 0).arr.view.set]{(dats m 0 c).share 0} (fun x => (dats m 0 c).arrAt x 0) 0 : sProp 𝕄)
      = ((c.tc : Thread nD τ).loc main_arg1 ↦{fullShare.left} entryMem m c main_arg1) := by
    rw [(arr_whole0 0).set_eq_univ]; rfl
  have e1 : (View.loc c.tc (cfg0.win 1).arr.view ↦[(cfg0.win 1).arr.view.set]{(dats m 0 c).share 1} (fun x => (dats m 0 c).arrAt x 0) 1 : sProp 𝕄)
      = ((c.tc : Thread nD τ).loc main_arg1 ↦{fullShare.right} entryMem m c main_arg1) := by
    rw [(arr_whole0 1).set_eq_univ]; rfl
  have e2 : (View.loc c.tc (cfg0.win 2).arr.view ↦[(cfg0.win 2).arr.view.set]{(dats m 0 c).share 2} (fun x => (dats m 0 c).arrAt x 0) 2 : sProp 𝕄)
      = ((c.tc : Thread nD τ).loc main_call0_v0 ↦{fullShare.left} entryMem m c main_call0_v0) := by
    rw [(arr_whole0 2).set_eq_univ]; rfl
  have e3 : (View.loc c.tc (cfg0.win 3).arr.view ↦[(cfg0.win 3).arr.view.set]{(dats m 0 c).share 3} (fun x => (dats m 0 c).arrAt x 0) 3 : sProp 𝕄)
      = ((c.tc : Thread nD τ).loc main_call0_v0 ↦{fullShare.right} entryMem m c main_call0_v0) := by
    rw [(arr_whole0 3).set_eq_univ]; rfl
  have e4 : (View.loc c.tc (cfg0.win 4).arr.view ↦[(cfg0.win 4).arr.view.set]{(dats m 0 c).share 4} (fun x => (dats m 0 c).arrAt x 0) 4 : sProp 𝕄)
      = ((c.tc : Thread nD τ).loc main_call0_v2 ↦{fullShare} entryMem m c main_call0_v2) := by
    rw [(arr_whole0 4).set_eq_univ]; rfl
  have e5 : (View.loc c.tc (cfg0.win 5).arr.view ↦[(cfg0.win 5).arr.view.set]{(dats m 0 c).share 5} (fun x => (dats m 0 c).arrAt x 0) 5 : sProp 𝕄)
      = ((c.tc : Thread nD τ).loc main_call0_v3 ↦{fullShare} entryMem m c main_call0_v3) := by
    rw [(arr_whole0 5).set_eq_univ]; rfl
  have e6 : (View.loc c.tc (cfg0.win 6).arr.view ↦[(cfg0.win 6).arr.view.set]{(dats m 0 c).share 6} (fun x => (dats m 0 c).arrAt x 0) 6 : sProp 𝕄)
      = ((c.tc : Thread nD τ).loc main_v0 ↦{fullShare} entryMem m c main_v0) := by
    rw [(arr_whole0 6).set_eq_univ]; rfl
  rw [e0, e1, e2, e3, e4, e5, e6]
  iintro ⟨Hadj, Hx, Hw, Hb, Hout⟩
  ihave Hadj2 := (pointsTo_share (PosShare.mem_left_op_right fullShare)).1 $$ Hadj
  icases Hadj2 with ⟨Hadj0, Hadj1⟩
  ihave Hx2 := (pointsTo_share (PosShare.mem_left_op_right fullShare)).1 $$ Hx
  icases Hx2 with ⟨Hx0, Hx1⟩
  isplitl [Hadj0]; · iexact Hadj0
  isplitl [Hadj1]; · iexact Hadj1
  isplitl [Hx0]; · iexact Hx0
  isplitl [Hx1]; · iexact Hx1
  isplitl [Hw]; · iexact Hw
  isplitl [Hb]; · iexact Hb
  iexact Hout

end Cert.KernelIdeal.Sage

end
-- ==== Proof.Ideal.Run.lean ====
/-
  The run of the whole program and its frame.

  The launch theorem for a pipeline whose windows may share arrays is applied to the proof data: the region
  invariant is the core's scoped buffers that are no staging buffer, the unscoped buffers that are no window's
  array (three of the four arguments among them) pass by the region untouched, and the arrays are dealt to the
  windows as `arrays_at_entry` says. Every weakly fair execution then terminates without fault with each window's
  array at what the library computes from the proof data and every other unscoped buffer as the region found it;
  the four argument arrays in particular end as launched.
-/
import proofs.«116606_g8117488189613_cont_9to1_m_843_11_alg».proof.Proof.Ideal.Split

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (arrBufs unscopedRest restRefs)

variable (m : (ℓ : Loc nD τ sig) → Buf (Elt F) ℓ) (ρ : Dev nD → PrngReg)

/-- What the run ends in: the windows' arrays at the library's account of the write-backs, everything else that is
    unscoped and no window's array as the region found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ restRefs sig spec0, r.2.mem ((c.tc : Thread nD τ).loc b) = entryMem m c b

set_option backward.isDefEq.respectTransparency.types false in
/-- From any memory with zero counters, every weakly fair execution of @main terminates, nothing faulting, in a state
    satisfying `RunPost`. -/
theorem run_main : θ_run defs (onTc (τ := τ) (main (F := F))) ⟨m, fun _ => 0, ρ⟩ (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := entryMem m) (hmain := main_to_region m Variants.none)
    (hsplit := arrays_at_entry m)
    (X := fun _ => iprop(emp)) (Y := fun _ => iprop(emp))
    (Z := fun c => unscopedRest (Ix := Unit) (Name := ℕ) (U := UR sig nD τ) (Lvl := ℕ) spec0 c (entryMem m c))
    (hX := fun c => by
      iintro H
      isplitr; · iempintro
      iexact H)
    (hin := fun c => by
      dsimp only [dats]
      iintro ⟨-, H⟩
      iexact H)
    (hout := fun c => by
      dsimp only [dats]
      iintro H
      isplitr; · iempintro
      iexact H)
    (QY := fun c s => ∀ b ∈ restRefs sig spec0, s.mem ((c.tc : Thread nD τ).loc b) = entryMem m c b)
    (hY := fun c s' => by
      iintro ⟨-, HU, HSI⟩
      unfold Pipeline.unscopedRest
      imodintro
      iapply (pointsTo_read_all (restRefs sig spec0) (fun b => (c.tc : Thread nD τ).loc b) (entryMem m c) s')
      isplitl [HU] <;> iassumption)
    (hQ := fun s h => h)

/-- The frame: the program runs to the end and its four argument arrays end as launched. `main_arg1` is a window's
    array (an input: the write-backs never touch it); the other three are no window's array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (entryMem_arg0 m c),
     ((h c).1 0).trans (((dats m 0 c).arrAt_in 0 rfl _).trans ((dats_A m c 0).trans (entryMem_arg1 m c))),
     ((h c).2 main_arg2 (Pipeline.mem_restRefs_of main_arg2 (by decide) (by decide))).trans (entryMem_arg2 m c),
     ((h c).2 main_arg3 (Pipeline.mem_restRefs_of main_arg3 (by decide) (by decide))).trans (entryMem_arg3 m c)⟩)
    (run_main m ρ)

end Cert.KernelIdeal.Sage

end
-- ==== Proof.Ideal.Reads.lean ====
/-
  Each window's block at a grid point, read at an index at the ideal instance, is an entry of an ARGUMENT array.

  The two adjacency windows hold rows 400 t + p and 400 t + 200 + p of the adjacency matrix; the resident feature
  window holds the bf16 copy of the node features, which at this instance is the node features; the block's own
  rows are rows 400 t + r of the same; the weight window holds the transposed weights (also through a cast that is
  the identity here); the bias window holds the bias as one row.
-/
import proofs.«116606_g8117488189613_cont_9to1_m_843_11_alg».proof.Proof.Ideal.Entry
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.SageValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Sage

variable (m : (ℓ : Loc nD τ sig) → Buf (Elt Ideal) ℓ)

/-- The printed index maps over the grid: the first adjacency window's block row is `2 t`, the second's `2 t + 1`, the
    own-rows window's `t`; every block column, and the resident windows' block rows, are 0. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Rows 400 t + p of the adjacency matrix: the first slab. -/
theorem slabA_at (c : Dev nD) (t : Fin cfg0.N) (p : Fin 200) (k : Fin 10000) (r : Fin 10000) (hr : r.val = 400 * t.val + p.val) :
    blockAt (F := Ideal) m c 0 t (ix2 p k) = m ((c.tc : Thread nD τ).loc main_arg1) (ix2 r k) := by
  unfold blockAt
  show entryMem m c main_arg1 (((cfg0.win 0).blk t).view.emb (ix2 p k)) = _
  rw [entryMem_arg1]
  obtain ⟨e0, e1, -⟩ := idx_facts t
  refine congrArg _ (funext fun a => Fin.ext ?_)
  match a with
  | ⟨0, _⟩ => show win0_0.index t (0 : Fin 2) * 200 + 1 * p.val = r.val; omega
  | ⟨1, _⟩ => show win0_0.index t (1 : Fin 2) * 10000 + 1 * k.val = k.val; omega

/-- Rows 400 t + 200 + p of the adjacency matrix: the second slab. -/
theorem slabB_at (c : Dev nD) (t : Fin cfg0.N) (p : Fin 200) (k : Fin 10000) (r : Fin 10000) (hr : r.val = 400 * t.val + 200 + p.val) :
    blockAt (F := Ideal) m c 1 t (ix2 p k) = m ((c.tc : Thread nD τ).loc main_arg1) (ix2 r k) := by
  unfold blockAt
  show entryMem m c main_arg1 (((cfg0.win 1).blk t).view.emb (ix2 p k)) = _
  rw [entryMem_arg1]
  obtain ⟨-, -, e0, e1, -⟩ := idx_facts t
  refine congrArg _ (funext fun a => Fin.ext ?_)
  match a with
  | ⟨0, _⟩ => show win0_1.index t (0 : Fin 2) * 200 + 1 * p.val = r.val; omega
  | ⟨1, _⟩ => show win0_1.index t (1 : Fin 2) * 10000 + 1 * k.val = k.val; omega

/-- The bf16 copy of the node features, as the region finds it: the cast applied to the launched features. -/
theorem entry_v0 (c : Dev nD) :
    @Eq (FVec Ideal S10000x512 .bf16) (entryMem (F := Ideal) m c main_call0_v0)
      (truncf .bf16 (m ((c.tc : Thread nD τ).loc main_arg0) : FVec Ideal S10000x512 .f32) bitsLt_bf16_f32) := by
  dsimp only [entryMem, hostOps0]
  after_results
  rfl

/-- The weight array the region finds: the cast of the transpose of the launched weights. -/
theorem entry_v2 (c : Dev nD) :
    @Eq (FVec Ideal S512x512 .bf16) (entryMem (F := Ideal) m c main_call0_v2)
      (truncf .bf16 (transpose S512x512 [1, 0] (m ((c.tc : Thread nD τ).loc main_arg2) : FVec Ideal S512x512 .f32)
          transposes_S512x512_S512x512_1_0 : FVec Ideal S512x512 .f32) bitsLt_bf16_f32) := by
  dsimp only [entryMem, hostOps0]
  after_results
  rfl

/-- The bias array the region finds: the launched bias recast as one row. -/
theorem entry_v3 (c : Dev nD) :
    @Eq (FVec Ideal S1x512 .f32) (entryMem (F := Ideal) m c main_call0_v3)
      (shapeCast S1x512 (m ((c.tc : Thread nD τ).loc main_arg3) : FVec Ideal S512 .f32) shapeCasts_S512_S1x512) := by
  dsimp only [entryMem, hostOps0]
  after_results
  rfl

/-- The resident features are the node features. -/
theorem feat_at (c : Dev nD) (t : Fin cfg0.N) (k : Fin 10000) (d : Fin 512) :
    blockAt (F := Ideal) m c 2 t (ix2 k d) = m ((c.tc : Thread nD τ).loc main_arg0) (ix2 k d) := by
  unfold blockAt
  show (entryMem m c main_call0_v0 : S10000x512.Idx → EReal) (((cfg0.win 2).blk t).view.emb (ix2 k d)) = _
  rw [entry_v0]
  show m ((c.tc : Thread nD τ).loc main_arg0) (((cfg0.win 2).blk t).view.emb (ix2 k d)) = _
  obtain ⟨-, -, -, -, e0, e1, -⟩ := idx_facts t
  refine congrArg _ (funext fun a => Fin.ext ?_)
  match a with
  | ⟨0, _⟩ => show win0_2.index t (0 : Fin 2) * 10000 + 1 * k.val = k.val; omega
  | ⟨1, _⟩ => show win0_2.index t (1 : Fin 2) * 512 + 1 * d.val = d.val; omega

/-- The block's own rows are rows 400 t + q of the node features. -/
theorem ownRows_at (c : Dev nD) (t : Fin cfg0.N) (q : Fin 400) (d : Fin 512) (r : Fin 10000) (hr : r.val = 400 * t.val + q.val) :
    blockAt (F := Ideal) m c 3 t (ix2 q d) = m ((c.tc : Thread nD τ).loc main_arg0) (ix2 r d) := by
  unfold blockAt
  show (entryMem m c main_call0_v0 : S10000x512.Idx → EReal) (((cfg0.win 3).blk t).view.emb (ix2 q d)) = _
  rw [entry_v0]
  show m ((c.tc : Thread nD τ).loc main_arg0) (((cfg0.win 3).blk t).view.emb (ix2 q d)) = _
  obtain ⟨-, -, -, -, -, -, e0, e1, -⟩ := idx_facts t
  refine congrArg _ (funext fun a => Fin.ext ?_)
  match a with
  | ⟨0, _⟩ => show win0_3.index t (0 : Fin 2) * 400 + 1 * q.val = r.val; omega
  | ⟨1, _⟩ => show win0_3.index t (1 : Fin 2) * 512 + 1 * d.val = d.val; omega

/-- The weight window is the weight matrix transposed. -/
theorem weight_at (c : Dev nD) (t : Fin cfg0.N) (d j : Fin 512) :
    blockAt (F := Ideal) m c 4 t (ix2 d j) = m ((c.tc : Thread nD τ).loc main_arg2) (ix2 j d) := by
  unfold blockAt
  show (entryMem m c main_call0_v2 : S512x512.Idx → EReal) (((cfg0.win 4).blk t).view.emb (ix2 d j)) = _
  rw [entry_v2]
  obtain ⟨-, -, -, -, -, -, -, -, e0, e1, -⟩ := idx_facts t
  have he : ((cfg0.win 4).blk t).view.emb (ix2 d j) = (ix2 d j : S512x512.Idx) := by
    refine funext fun a => Fin.ext ?_
    match a with
    | ⟨0, _⟩ => show win0_4.index t (0 : Fin 2) * 512 + 1 * d.val = d.val; omega
    | ⟨1, _⟩ => show win0_4.index t (1 : Fin 2) * 512 + 1 * j.val = j.val; omega
  rw [he]
  show transpose S512x512 [1, 0] (m ((c.tc : Thread nD τ).loc main_arg2)) transposes_S512x512_S512x512_1_0 (ix2 d j) = _
  exact transpose_ix2_apply (m ((c.tc : Thread nD τ).loc main_arg2)) transposes_S512x512_S512x512_1_0 d j

/-- The bias window is the bias as one row. -/
theorem bias_at (c : Dev nD) (t : Fin cfg0.N) (j : Fin 512) :
    blockAt (F := Ideal) m c 5 t (ix2 (0 : Fin 1) j) = m ((c.tc : Thread nD τ).loc main_arg3) (ix1 j) := by
  unfold blockAt
  show (entryMem m c main_call0_v3 : S1x512.Idx → EReal) (((cfg0.win 5).blk t).view.emb (ix2 (0 : Fin 1) j)) = _
  rw [entry_v3]
  obtain ⟨-, -, -, -, -, -, -, -, -, -, e0, e1⟩ := idx_facts t
  have he : ((cfg0.win 5).blk t).view.emb (ix2 (0 : Fin 1) j) = (ix2 (0 : Fin 1) j : S1x512.Idx) := by
    refine funext fun a => Fin.ext ?_
    match a with
    | ⟨0, _⟩ => show win0_5.index t (0 : Fin 2) * 1 + 1 * 0 = 0; omega
    | ⟨1, _⟩ => show win0_5.index t (1 : Fin 2) * 512 + 1 * j.val = j.val; omega
  rw [he]
  exact shapeCast_a_1a_apply (m ((c.tc : Thread nD τ).loc main_arg3)) shapeCasts_S512_S1x512 (0 : Fin 1) j

end Cert.KernelIdeal.SageValue

end
-- ==== Proof.Spec.lean ====
/-
  The GraphSAGE layer as one function of its four arguments, on the extended reals.

  For a node `r`: aggregate `agg d = ∑ k, adj r k · x k d + x r d` (the neighbours' features and the node's own: the
  row of `(adj + I) · x`), apply the linear layer and the rectifier `h j = max (∑ d, agg d · W j d + b j) 0`, and
  divide the row by its Euclidean norm plus a small constant. The kernel computes exactly this; the reference adds
  the identity matrix to `adj` before the product, and the two agree when `adj` and `x` are finite, because
  `(a + δ) · x = a · x + δ · x` for real `a`, `x` and `δ ∈ {0, 1}`.
-/
import Idealize.ShloMosaic.PureOps.Ideal
import Idealize.ShloMosaic.PureOps.Ideal.Laws
import Idealize.ShloMosaic.Lib.ValueIdx

noncomputable section

namespace Cert.Sage

open Idealize.ShloMosaic

/-- The normalisation's small constant: the extended real the float 1e-7's bits denote. -/
abbrev tiny : EReal := Ideal.ofBits .f32 0x33D6BF95#32

/-- One node's row after the linear layer and the rectifier. `a` is the node's adjacency row, `s` its own features,
    `x` all features, `w d j` the weight from input `d` to output `j`, `β` the bias. -/
def layerRow (a : Fin 10000 → EReal) (s : Fin 512 → EReal) (x : Fin 10000 → Fin 512 → EReal)
    (w : Fin 512 → Fin 512 → EReal) (β : Fin 512 → EReal) : Fin 512 → EReal :=
  fun j => max ((∑ d : Fin 512, ((∑ k : Fin 10000, a k * x k d) + s d) * w d j) + β j) 0

/-- A row divided by its Euclidean norm plus `tiny`. -/
def unitRow (h : Fin 512 → EReal) : Fin 512 → EReal :=
  fun j => Ideal.div (h j) (Ideal.sqrt (∑ j' : Fin 512, h j' * h j') + tiny)

/-- The layer's result at node `r`, output feature `j`. -/
def sage (x : Fin 10000 → Fin 512 → EReal) (adj : Fin 10000 → Fin 10000 → EReal)
    (W : Fin 512 → Fin 512 → EReal) (b : Fin 512 → EReal) (r : Fin 10000) (j : Fin 512) : EReal :=
  unitRow (layerRow (adj r) (x r) x (fun d j => W j d) b) j

/-- The layer's result as an array of shape [10000, 512], from the four argument arrays. -/
def sageAt (x : (⟨2, ![10000, 512]⟩ : Shape).Idx → EReal) (adj : (⟨2, ![10000, 10000]⟩ : Shape).Idx → EReal)
    (W : (⟨2, ![512, 512]⟩ : Shape).Idx → EReal) (b : (⟨1, ![512]⟩ : Shape).Idx → EReal) :
    (⟨2, ![10000, 512]⟩ : Shape).Idx → EReal :=
  fun i => sage (fun k d => x (ValueIdx.ix2 k d)) (fun r k => adj (ValueIdx.ix2 r k)) (fun j d => W (ValueIdx.ix2 j d))
    (fun j => b (ValueIdx.ix1 j)) (i 0) (i 1)

/-- Adding the identity to a finite adjacency row before the product adds the node's own (finite) features after it. -/
theorem self_loop_sum (a : Fin 10000 → EReal) (x : Fin 10000 → EReal) (r : Fin 10000)
    (ha : ∀ k, ∃ v : ℝ, a k = (v : EReal)) (hx : ∀ k, ∃ v : ℝ, x k = (v : EReal)) :
    (∑ k : Fin 10000, (a k + (if r = k then (1 : EReal) else 0)) * x k) = (∑ k : Fin 10000, a k * x k) + x r := by
  -- real witnesses for the two finite families
  choose av hav using ha
  choose xv hxv using hx
  -- the coercion of a finite real sum is the sum of the coercions
  have hcoe : ∀ (s : Finset (Fin 10000)) (f : Fin 10000 → ℝ),
      ((∑ k ∈ s, f k : ℝ) : EReal) = ∑ k ∈ s, (f k : EReal) := by
    intro s f
    induction s using Finset.induction_on with
    | empty => simp
    | insert c s hc ih => rw [Finset.sum_insert hc, Finset.sum_insert hc, EReal.coe_add, ih]
  -- every summand is the coercion of a real
  have h1 : ∀ k, (a k + (if r = k then (1 : EReal) else 0)) * x k
      = (((av k + (if r = k then (1 : ℝ) else 0)) * xv k : ℝ) : EReal) := by
    intro k
    rw [hav k, hxv k, EReal.coe_mul, EReal.coe_add]
    congr 2
    split_ifs <;> simp
  have h2 : ∀ k, a k * x k = ((av k * xv k : ℝ) : EReal) := by
    intro k
    rw [hav k, hxv k, EReal.coe_mul]
  rw [Finset.sum_congr rfl (fun k _ => h1 k), Finset.sum_congr rfl (fun k _ => h2 k), hxv r,
    ← hcoe, ← hcoe, ← EReal.coe_add]
  congr 1
  -- in the reals: distribute, and the indicator picks out the term at `r`
  simp only [add_mul, Finset.sum_add_distrib, ite_mul, one_mul, zero_mul, Finset.sum_ite_eq, Finset.mem_univ, if_true]

end Cert.Sage

end
-- ==== Proof.Ideal.Payload.lean ====
/-
  The body's two stored values, read at an index at the ideal instance.

  Each 200-row half of the output block is, row by row, the layer function's unit row: the row's adjacency slab
  times the resident features plus the row's own features (the block's rows of the bf16 features, widened: the
  identity at this instance), times the transposed weights, plus the bias row, rectified, divided by its norm plus
  the small constant.
-/
import proofs.«116606_g8117488189613_cont_9to1_m_843_11_alg».proof.Proof.Gen.KernelIdeal.Skeleton
import proofs.«116606_g8117488189613_cont_9to1_m_843_11_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.SageValue

open Idealize.ShloMosaic Idealize.SL.Sem Idealize.ShloMosaic.ValueIdx
open Cert.KernelIdeal Cert.KernelIdeal.Gen

/-! ## The two matrix products read at an index

Each contracts one axis: the output at row `p`, column `q` is the sum over the contracted coordinate `k` of the
left operand at `(p, k)` times the right at `(k, q)`. The four coordinate facts of each record are kept apart and
stated at the literal axes. -/

theorem slab_lhs_0 (i : S200x512.Idx) (q : dot_S200x10000_S10000x512_S200x512_1_0_0_1_n_n.contr.Idx) :
    (dot_S200x10000_S10000x512_S200x512_1_0_0_1_n_n.lhsIdx i q 0).val = (i 0).val := by
  unfold DotDims.lhsIdx
  rw [dif_neg (show ¬(0 : Fin S200x10000.rank) ∈ dot_S200x10000_S10000x512_S200x512_1_0_0_1_n_n.lhsBatch by decide), dif_pos (show (0 : Fin S200x10000.rank) ∈ dot_S200x10000_S10000x512_S200x512_1_0_0_1_n_n.lhsNonContracting by decide)]
  rfl
theorem slab_lhs_1 (i : S200x512.Idx) (q : dot_S200x10000_S10000x512_S200x512_1_0_0_1_n_n.contr.Idx) :
    (dot_S200x10000_S10000x512_S200x512_1_0_0_1_n_n.lhsIdx i q 1).val = (q ⟨0, by decide⟩).val :=
  dot_S200x10000_S10000x512_S200x512_1_0_0_1_n_n.lhsIdx_val_of_single rfl i q
theorem slab_rhs_0 (i : S200x512.Idx) (q : dot_S200x10000_S10000x512_S200x512_1_0_0_1_n_n.contr.Idx) :
    (dot_S200x10000_S10000x512_S200x512_1_0_0_1_n_n.rhsIdx i q 0).val = (q ⟨0, by decide⟩).val :=
  dot_S200x10000_S10000x512_S200x512_1_0_0_1_n_n.rhsIdx_val_of_single rfl i q
theorem slab_rhs_1 (i : S200x512.Idx) (q : dot_S200x10000_S10000x512_S200x512_1_0_0_1_n_n.contr.Idx) :
    (dot_S200x10000_S10000x512_S200x512_1_0_0_1_n_n.rhsIdx i q 1).val = (i 1).val := by
  unfold DotDims.rhsIdx
  rw [dif_neg (show ¬(1 : Fin S10000x512.rank) ∈ dot_S200x10000_S10000x512_S200x512_1_0_0_1_n_n.rhsBatch by decide), dif_pos (show (1 : Fin S10000x512.rank) ∈ dot_S200x10000_S10000x512_S200x512_1_0_0_1_n_n.rhsNonContracting by decide)]
  rfl

/-- A 200-row adjacency slab times the resident features, into the zero accumulator. -/
theorem slab_apply (y : FVec Ideal S200x10000 .f32) (x : FVec Ideal S10000x512 .bf16) (p : Fin 200) (q : Fin 512) :
    matmul dot_S200x10000_S10000x512_S200x512_1_0_0_1_n_n none y x (constant (F := Ideal) S200x512 .f32 0x00000000#32) (ix2 p q)
      = ∑ k : Fin 10000, y (ix2 p k) * x (ix2 k q) := by
  simp only [matmul]
  rw [Ideal.matmul_constant_zero_apply, ← Equiv.sum_comp (contrEquiv1 dot_S200x10000_S10000x512_S200x512_1_0_0_1_n_n 10000 rfl rfl).symm]
  refine Finset.sum_congr rfl fun k _ => ?_
  have hk := contrEquiv1_symm_val dot_S200x10000_S10000x512_S200x512_1_0_0_1_n_n 10000 rfl rfl k
  have el : dot_S200x10000_S10000x512_S200x512_1_0_0_1_n_n.lhsIdx (ix2 p q) ((contrEquiv1 dot_S200x10000_S10000x512_S200x512_1_0_0_1_n_n 10000 rfl rfl).symm k) = ix2 p k := funext fun a => Fin.ext (by
    match a with
    | ⟨0, _⟩ => exact slab_lhs_0 _ _
    | ⟨1, _⟩ => exact (slab_lhs_1 _ _).trans hk)
  have er : dot_S200x10000_S10000x512_S200x512_1_0_0_1_n_n.rhsIdx (ix2 p q) ((contrEquiv1 dot_S200x10000_S10000x512_S200x512_1_0_0_1_n_n 10000 rfl rfl).symm k) = ix2 k q := funext fun a => Fin.ext (by
    match a with
    | ⟨0, _⟩ => exact (slab_rhs_0 _ _).trans hk
    | ⟨1, _⟩ => exact slab_rhs_1 _ _)
  rw [el, er]

theorem lin_lhs_0 (i : S200x512.Idx) (q : dot_S200x512_S512x512_S200x512_1_0_0_1_n_n.contr.Idx) :
    (dot_S200x512_S512x512_S200x512_1_0_0_1_n_n.lhsIdx i q 0).val = (i 0).val := by
  unfold DotDims.lhsIdx
  rw [dif_neg (show ¬(0 : Fin S200x512.rank) ∈ dot_S200x512_S512x512_S200x512_1_0_0_1_n_n.lhsBatch by decide), dif_pos (show (0 : Fin S200x512.rank) ∈ dot_S200x512_S512x512_S200x512_1_0_0_1_n_n.lhsNonContracting by decide)]
  rfl
theorem lin_lhs_1 (i : S200x512.Idx) (q : dot_S200x512_S512x512_S200x512_1_0_0_1_n_n.contr.Idx) :
    (dot_S200x512_S512x512_S200x512_1_0_0_1_n_n.lhsIdx i q 1).val = (q ⟨0, by decide⟩).val :=
  dot_S200x512_S512x512_S200x512_1_0_0_1_n_n.lhsIdx_val_of_single rfl i q
theorem lin_rhs_0 (i : S200x512.Idx) (q : dot_S200x512_S512x512_S200x512_1_0_0_1_n_n.contr.Idx) :
    (dot_S200x512_S512x512_S200x512_1_0_0_1_n_n.rhsIdx i q 0).val = (q ⟨0, by decide⟩).val :=
  dot_S200x512_S512x512_S200x512_1_0_0_1_n_n.rhsIdx_val_of_single rfl i q
theorem lin_rhs_1 (i : S200x512.Idx) (q : dot_S200x512_S512x512_S200x512_1_0_0_1_n_n.contr.Idx) :
    (dot_S200x512_S512x512_S200x512_1_0_0_1_n_n.rhsIdx i q 1).val = (i 1).val := by
  unfold DotDims.rhsIdx
  rw [dif_neg (show ¬(1 : Fin S512x512.rank) ∈ dot_S200x512_S512x512_S200x512_1_0_0_1_n_n.rhsBatch by decide), dif_pos (show (1 : Fin S512x512.rank) ∈ dot_S200x512_S512x512_S200x512_1_0_0_1_n_n.rhsNonContracting by decide)]
  rfl

/-- The 200 aggregated rows times the transposed weights, into the zero accumulator. -/
theorem lin_apply (y : FVec Ideal S200x512 .f32) (x : FVec Ideal S512x512 .bf16) (p : Fin 200) (q : Fin 512) :
    matmul dot_S200x512_S512x512_S200x512_1_0_0_1_n_n none y x (constant (F := Ideal) S200x512 .f32 0x00000000#32) (ix2 p q)
      = ∑ k : Fin 512, y (ix2 p k) * x (ix2 k q) := by
  simp only [matmul]
  rw [Ideal.matmul_constant_zero_apply, ← Equiv.sum_comp (contrEquiv1 dot_S200x512_S512x512_S200x512_1_0_0_1_n_n 512 rfl rfl).symm]
  refine Finset.sum_congr rfl fun k _ => ?_
  have hk := contrEquiv1_symm_val dot_S200x512_S512x512_S200x512_1_0_0_1_n_n 512 rfl rfl k
  have el : dot_S200x512_S512x512_S200x512_1_0_0_1_n_n.lhsIdx (ix2 p q) ((contrEquiv1 dot_S200x512_S512x512_S200x512_1_0_0_1_n_n 512 rfl rfl).symm k) = ix2 p k := funext fun a => Fin.ext (by
    match a with
    | ⟨0, _⟩ => exact lin_lhs_0 _ _
    | ⟨1, _⟩ => exact (lin_lhs_1 _ _).trans hk)
  have er : dot_S200x512_S512x512_S200x512_1_0_0_1_n_n.rhsIdx (ix2 p q) ((contrEquiv1 dot_S200x512_S512x512_S200x512_1_0_0_1_n_n 512 rfl rfl).symm k) = ix2 k q := funext fun a => Fin.ext (by
    match a with
    | ⟨0, _⟩ => exact (lin_rhs_0 _ _).trans hk
    | ⟨1, _⟩ => exact lin_rhs_1 _ _)
  rw [el, er]

/-! ## The row norm's layout steps read at an index -/

/-- The lane sum of a [200, 512] value at row `p`: the sum of the row. -/
theorem rowSum_apply (src : FVec Ideal S200x512 .f32) (p : Fin 200) :
    multiReduction (F := Ideal) .add [1] S200 src 0x00000000#32 reduces_S200x512_S200 (.inl rfl) rfl (ix1 p)
      = ∑ k : Fin 512, src (ix2 p k) := by
  refine (Ideal.multiReduction_add_single src 0x00000000#32 reduces_S200x512_S200 (.inl rfl) rfl (ix1 p)).trans ?_
  refine Finset.sum_congr rfl fun k _ => congrArg src (funext fun c => Fin.ext ?_)
  match c with
  | ⟨0, _⟩ => rfl
  | ⟨1, _⟩ => rfl

/-- A [200] vector cast to a [200, 1] column reads, at `(p, 0)`, the vector at `p`. -/
theorem column_apply {α : Type} (u : S200.Idx → α) (p : Fin 200) :
    shapeCast S200x1 u shapeCasts_S200_S200x1 (ix2 p (0 : Fin 1)) = u (ix1 p) :=
  shapeCast_apply u shapeCasts_S200_S200x1 _ _ (by
    rw [Shape.rowMajor_val_two, Shape.rowMajor_val_one]
    show p.val = p.val * 1 + 0
    omega)

/-- A [200, 1] column broadcast along the lanes reads, at `(p, q)`, the column at `(p, 0)`. -/
theorem lanes_apply {α : Type} (w : S200x1.Idx → α) (p : Fin 200) (q : Fin 512) :
    broadcastTo S200x512 w broadcasts_S200x1_S200x512 (ix2 p q) = w (ix2 p (0 : Fin 1)) := by
  refine broadcastTo_apply w broadcasts_S200x1_S200x512 (ix2 p q) (ix2 p (0 : Fin 1)) fun ax => ?_
  match ax with
  | ⟨0, _⟩ => rfl
  | ⟨1, _⟩ => rfl

/-! ## Rectify, then divide each row by its norm plus the small constant -/

/-- A [200, 512] value divided, row by row, by the square root of the row's sum of squares plus the small constant. -/
theorem normalize_apply (h : FVec Ideal S200x512 .f32) (p : Fin 200) (q : Fin 512) :
    divf h (broadcastTo S200x512 (addf (sqrt (shapeCast S200x1 (multiReduction (F := Ideal) .add [1] S200 (mulf h h) 0x00000000#32
        reduces_S200x512_S200 (.inl rfl) rfl) shapeCasts_S200_S200x1)) (broadcast S200x1 (Scalar.ofBits .f32 0x33D6BF95#32)))
        broadcasts_S200x1_S200x512) (ix2 p q)
      = Ideal.div (h (ix2 p q)) (Ideal.sqrt (∑ j' : Fin 512, h (ix2 p j') * h (ix2 p j')) + Cert.Sage.tiny) := by
  rw [divf_apply, lanes_apply]
  show Ideal.div _ (Ideal.sqrt (shapeCast S200x1 _ shapeCasts_S200_S200x1 (ix2 p (0 : Fin 1))) + _) = _
  rw [column_apply, rowSum_apply]
  rfl

/-- The store's last steps on a pre-activation `v`: the rectified row at `p`, as a unit row, at column `q`. -/
theorem unit_rows (v : FVec Ideal S200x512 .f32) (p : Fin 200) (q : Fin 512) :
    k0_pay1 (F := Ideal) v (ix2 p q) = Cert.Sage.unitRow (fun j => max (v (ix2 p j)) 0) q := by
  unfold k0_pay1
  refine (normalize_apply _ p q).trans ?_
  unfold Cert.Sage.unitRow
  have hz : FloatOps.ofBits (F := Ideal) .f32 0x00000000#32 = (0 : EReal) := Ideal.ofBits_zero_f32
  simp only [maximumf_apply, broadcast_apply]
  show Ideal.div (max _ (FloatOps.ofBits (F := Ideal) .f32 0x00000000#32))
      (Ideal.sqrt (∑ j' : Fin 512, max (v (ix2 p j')) (FloatOps.ofBits (F := Ideal) .f32 0x00000000#32)
        * max (v (ix2 p j')) (FloatOps.ofBits (F := Ideal) .f32 0x00000000#32)) + _) = _
  rw [hz]

/-! ## The pre-activation: aggregate, linear layer, bias -/

/-- The value before the rectifier at row `p`, column `j`: the slab row times the features plus the row's own
    features, times the weights, plus the bias. -/
theorem pre_rows (xs : FVec Ideal S10000x512 .bf16) (wt : FVec Ideal S512x512 .bf16) (bias : FVec Ideal S1x512 .f32)
    (a : FVec Ideal S200x10000 .f32) (s : FVec Ideal S200x512 .bf16) (p : Fin 200) (j : Fin 512) :
    k0_pay6 (F := Ideal) xs wt bias a s (ix2 p j)
      = (∑ d : Fin 512, ((∑ k : Fin 10000, a (ix2 p k) * xs (ix2 k d)) + s (ix2 p d)) * wt (ix2 d j))
          + bias (ix2 (0 : Fin 1) j) := by
  unfold k0_pay6 k0_pay2 k0_pay3 k0_pay4
  simp only [shapeCast_self]
  rw [addf_apply, lin_apply, broadcastTo_1b_ab_apply]
  refine congrArg (· + _) (Finset.sum_congr rfl fun d _ => ?_)
  rw [addf_apply, slab_apply]
  rfl

/-! ## The two stores -/

/-- Either store's value: the unit row of the layer row. The first store's payload spells the same chain inline. -/
theorem stored_rows (xs : Vec Ideal S10000x512 .bf16) (wt : Vec Ideal S512x512 .bf16) (bias : Vec Ideal S1x512 .f32)
    (a : Vec Ideal S200x10000 .f32) (s : Vec Ideal S200x512 .bf16) (p : Fin 200) (q : Fin 512) :
    k0_pay1 (F := Ideal) (k0_pay6 (F := Ideal) xs wt bias a s) (ix2 p q)
      = Cert.Sage.unitRow (Cert.Sage.layerRow (fun k => a (ix2 p k)) (fun d => s (ix2 p d)) (fun k d => xs (ix2 k d))
          (fun d j => wt (ix2 d j)) (fun j => bias (ix2 (0 : Fin 1) j))) q :=
  (unit_rows _ p q).trans (congrArg (fun h => Cert.Sage.unitRow h q)
    (funext fun j => congrArg (max · 0) (pre_rows xs wt bias a s p j)))

/-- The first store's value (rows 0 to 199 of the block) at row `p`, column `q`. -/
theorem upper_rows (xs : Vec Ideal S10000x512 .bf16) (wt : Vec Ideal S512x512 .bf16) (bias : Vec Ideal S1x512 .f32)
    (a : Vec Ideal S200x10000 .f32) (s : Vec Ideal S200x512 .bf16) (p : Fin 200) (q : Fin 512) :
    k0_pay5 (F := Ideal) xs wt bias a s (ix2 p q)
      = Cert.Sage.unitRow (Cert.Sage.layerRow (fun k => a (ix2 p k)) (fun d => s (ix2 p d)) (fun k d => xs (ix2 k d))
          (fun d j => wt (ix2 d j)) (fun j => bias (ix2 (0 : Fin 1) j))) q :=
  stored_rows xs wt bias a s p q

/-- The second store's value (rows 200 to 399 of the block) at row `p` of its half, column `q`. -/
theorem lower_rows (xs : Vec Ideal S10000x512 .bf16) (wt : Vec Ideal S512x512 .bf16) (bias : Vec Ideal S1x512 .f32)
    (a : Vec Ideal S200x10000 .f32) (s : Vec Ideal S200x512 .bf16) (p : Fin 200) (q : Fin 512) :
    k0_pay1 (F := Ideal) (k0_pay6 (F := Ideal) xs wt bias a s) (ix2 p q)
      = Cert.Sage.unitRow (Cert.Sage.layerRow (fun k => a (ix2 p k)) (fun d => s (ix2 p d)) (fun k d => xs (ix2 k d))
          (fun d j => wt (ix2 d j)) (fun j => bias (ix2 (0 : Fin 1) j))) q :=
  stored_rows xs wt bias a s p q

end Cert.KernelIdeal.SageValue

end
-- ==== Proof.Ideal.OutBlock.lean ====
/-
  The output block at an index: which store wrote it.

  Rows 0 to 199 of the block come from the first store, whose adjacency slab is the first window's; rows 200 to 399
  from the second store and the second slab. Either way the entry is the layer function's unit row of that row's
  adjacency entries, its own features (the same row of the 400-row own-features block), the resident features, the
  transposed weights and the bias row.
-/
import proofs.«116606_g8117488189613_cont_9to1_m_843_11_alg».proof.Proof.Ideal.Body
import proofs.«116606_g8117488189613_cont_9to1_m_843_11_alg».proof.Proof.Ideal.Payload

set_option maxRecDepth 16384

noncomputable section

namespace Cert.KernelIdeal.SageValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Sage

/-! ## Where the two halves sit in the block -/

/-- The offsets `(0, 0)` are zero on both axes. -/
theorem off_zero : (![0, 0] : Fin 2 → Nat) = fun _ => 0 := funext fun a => by
  match a with
  | ⟨0, _⟩ => rfl
  | ⟨1, _⟩ => rfl

/-- The upper half places its `(p, q)` at `(p, q)` of the block. -/
theorem upperHalf_emb (p : Fin 200) (q : Fin 512) (r : Fin 400) (hr : r.val = p.val) :
    upperHalf.emb (ix2 p q) = ix2 r q := by
  funext a; apply Fin.ext
  match a with
  | ⟨0, _⟩ => show 0 + 1 * p.val = r.val; omega
  | ⟨1, _⟩ => show 0 + 1 * q.val = q.val; omega

/-- The lower half places its `(p, q)` at `(200 + p, q)` of the block. -/
theorem lowerHalf_emb (p : Fin 200) (q : Fin 512) (r : Fin 400) (hr : r.val = 200 + p.val) :
    lowerHalf.emb (ix2 p q) = ix2 r q := by
  funext a; apply Fin.ext
  match a with
  | ⟨0, _⟩ => show 200 + 1 * p.val = r.val; omega
  | ⟨1, _⟩ => show 0 + 1 * q.val = q.val; omega

/-- A row below 200 is not in the lower half. -/
theorem not_mem_lowerHalf (q : Fin 512) (r : Fin 400) (hr : r.val < 200) : ix2 r q ∉ lowerHalf.set := by
  intro h
  have h0 : 200 ≤ r.val := ((Rect.mem_set_unit.mp h) 0).1
  omega

/-- The canon of the two half stores at a row of the upper half: the second piece's payload, the row being outside
    the lower half and the upper half's placement of `(p, q)`. -/
theorem halves_upper (w0 w1 : Vec Ideal S200x512 .f32) (p : Fin 200) (q : Fin 512) (r : Fin 400) (hr : r.val = p.val) :
    View.canon ([⟨lowerHalf, w0⟩, ⟨upperHalf, w1⟩] : List (View.Piece (Elt Ideal) S400x512 .f32)) (ix2 r q) = w1 (ix2 p q) := by
  have hlt : r.val < 200 := by have := p.isLt; omega
  rw [View.canon_cons_of_not_mem (⟨lowerHalf, w0⟩ : View.Piece (Elt Ideal) S400x512 .f32) _ (not_mem_lowerHalf q r hlt),
    ← upperHalf_emb p q r hr]
  exact View.canon_cons_emb upperHalf w1 [] (ix2 p q)

/-- The canon of the two half stores at a row of the lower half: the first piece's payload. -/
theorem halves_lower (w0 w1 : Vec Ideal S200x512 .f32) (p : Fin 200) (q : Fin 512) (r : Fin 400) (hr : r.val = 200 + p.val) :
    View.canon ([⟨lowerHalf, w0⟩, ⟨upperHalf, w1⟩] : List (View.Piece (Elt Ideal) S400x512 .f32)) (ix2 r q) = w0 (ix2 p q) := by
  rw [← lowerHalf_emb p q r hr]
  exact View.canon_cons_emb lowerHalf w0 _ (ix2 p q)

/-- Row `p` of the upper half. -/
theorem outBlock_upper (a0 a1 : Vec Ideal S200x10000 .f32) (xs : Vec Ideal S10000x512 .bf16) (xr : Vec Ideal S400x512 .bf16)
    (wt : Vec Ideal S512x512 .bf16) (bias : Vec Ideal S1x512 .f32) (p : Fin 200) (q : Fin 512) (r : Fin 400) (hr : r.val = p.val) :
    outBlock (F := Ideal) a0 a1 xs xr wt bias (ix2 r q)
      = Cert.Sage.unitRow (Cert.Sage.layerRow (fun k => a0 (ix2 p k)) (fun d => xr (ix2 r d)) (fun k d => xs (ix2 k d))
          (fun d j => wt (ix2 d j)) (fun j => bias (ix2 (0 : Fin 1) j))) q := by
  unfold outBlock
  refine (halves_upper _ _ p q r hr).trans ?_
  refine (upper_rows _ _ _ _ _ p q).trans ?_
  have e1 : View.ld a0 slabAll = a0 := View.ld_unit_zero (S := S200x10000) off_zero _ a0
  have e2 : View.ld xs featAll = xs := View.ld_unit_zero (S := S10000x512) off_zero _ xs
  have e3 : View.ld wt weightAll = wt := View.ld_unit_zero (S := S512x512) off_zero _ wt
  have e4 : View.ld bias biasAll = bias := View.ld_unit_zero (S := S1x512) off_zero _ bias
  have e5 : (fun d => View.ld xr upperHalf (ix2 p d)) = fun d => xr (ix2 r d) :=
    funext fun d => congrArg xr (upperHalf_emb p d r hr)
  rw [e1, e2, e3, e4, e5]

/-- Row `p` of the lower half: row `200 + p` of the block. -/
theorem outBlock_lower (a0 a1 : Vec Ideal S200x10000 .f32) (xs : Vec Ideal S10000x512 .bf16) (xr : Vec Ideal S400x512 .bf16)
    (wt : Vec Ideal S512x512 .bf16) (bias : Vec Ideal S1x512 .f32) (p : Fin 200) (q : Fin 512) (r : Fin 400) (hr : r.val = 200 + p.val) :
    outBlock (F := Ideal) a0 a1 xs xr wt bias (ix2 r q)
      = Cert.Sage.unitRow (Cert.Sage.layerRow (fun k => a1 (ix2 p k)) (fun d => xr (ix2 r d)) (fun k d => xs (ix2 k d))
          (fun d j => wt (ix2 d j)) (fun j => bias (ix2 (0 : Fin 1) j))) q := by
  unfold outBlock
  refine (halves_lower _ _ p q r hr).trans ?_
  refine (lower_rows _ _ _ _ _ p q).trans ?_
  have e1 : View.ld a1 slabAll = a1 := View.ld_unit_zero (S := S200x10000) off_zero _ a1
  have e2 : View.ld xs featAll = xs := View.ld_unit_zero (S := S10000x512) off_zero _ xs
  have e3 : View.ld wt weightAll = wt := View.ld_unit_zero (S := S512x512) off_zero _ wt
  have e4 : View.ld bias biasAll = bias := View.ld_unit_zero (S := S1x512) off_zero _ bias
  have e5 : (fun d => View.ld xr lowerHalf (ix2 p d)) = fun d => xr (ix2 r d) :=
    funext fun d => congrArg xr (lowerHalf_emb p d r hr)
  rw [e1, e2, e3, e4, e5]

end Cert.KernelIdeal.SageValue

end
-- ==== Proof.Ideal.Final.lean ====
/-
  The output array after the run is the layer function of the four argument arrays.

  Grid point `t` writes back rows 400 t to 400 t + 399. What it writes is, entry by entry, the layer function at that
  row (the block reads of the inputs identify the row's adjacency entries and own features), so every block written
  back is the corresponding block of the one array `Cert.Sage.sageAt …`; the 25 blocks tile the 10000 rows, so the
  array ends equal to it.
-/
import proofs.«116606_g8117488189613_cont_9to1_m_843_11_alg».proof.Proof.Ideal.Data
import proofs.«116606_g8117488189613_cont_9to1_m_843_11_alg».proof.Proof.Ideal.Reads
import proofs.«116606_g8117488189613_cont_9to1_m_843_11_alg».proof.Proof.Ideal.OutBlock

set_option maxRecDepth 16384

noncomputable section

namespace Cert.KernelIdeal.SageValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Sage

variable (m : (ℓ : Loc nD τ sig) → Buf (Elt Ideal) ℓ)

/-- The layer function of the launch memory's four argument arrays on core `c`. -/
abbrev target (c : Dev nD) : (⟨2, ![10000, 512]⟩ : Shape).Idx → EReal :=
  Cert.Sage.sageAt (m ((c.tc : Thread nD τ).loc main_arg0)) (m ((c.tc : Thread nD τ).loc main_arg1))
    (m ((c.tc : Thread nD τ).loc main_arg2)) (m ((c.tc : Thread nD τ).loc main_arg3))

/-! ## The layer function at a row -/

/-- The target at row `R`, column `q`: the unit row of the layer row over the four argument arrays. -/
theorem target_apply (c : Dev nD) (R : Fin 10000) (q : Fin 512) :
    target m c (ix2 R q)
      = Cert.Sage.unitRow (Cert.Sage.layerRow (fun k => m ((c.tc : Thread nD τ).loc main_arg1) (ix2 R k)) (fun d => m ((c.tc : Thread nD τ).loc main_arg0) (ix2 R d))
          (fun k d => m ((c.tc : Thread nD τ).loc main_arg0) (ix2 k d)) (fun d j => m ((c.tc : Thread nD τ).loc main_arg2) (ix2 j d)) (fun j => m ((c.tc : Thread nD τ).loc main_arg3) (ix1 j))) q := rfl

/-- The unit row of a layer row depends only on the entries of its five arguments. -/
theorem unitRow_layerRow_congr {a a' : Fin 10000 → EReal} {s s' : Fin 512 → EReal} {x x' : Fin 10000 → Fin 512 → EReal}
    {w w' : Fin 512 → Fin 512 → EReal} {β β' : Fin 512 → EReal} (ha : ∀ k, a k = a' k) (hs : ∀ d, s d = s' d)
    (hx : ∀ k d, x k d = x' k d) (hw : ∀ d j, w d j = w' d j) (hβ : ∀ j, β j = β' j) (q : Fin 512) :
    Cert.Sage.unitRow (Cert.Sage.layerRow a s x w β) q = Cert.Sage.unitRow (Cert.Sage.layerRow a' s' x' w' β') q := by
  rw [funext ha, funext hs, (funext fun k => funext (hx k) : x = x'), (funext fun d => funext (hw d) : w = w'), funext hβ]

/-! ## One entry of the block a grid point leaves -/

/-- Entry `(r, q)` of the block point `t` leaves in the output buffer is the target at row `400 t + r`. -/
theorem block_entry (c : Dev nD) (t : Fin cfg0.N) (r : Fin 400) (q : Fin 512) (R : Fin 10000) (hR : R.val = 400 * t.val + r.val) :
    outBlock (F := Ideal) (blockAt m c 0 t) (blockAt m c 1 t) (blockAt m c 2 t) (blockAt m c 3 t) (blockAt m c 4 t)
        (blockAt m c 5 t) (ix2 r q)
      = target m c (ix2 R q) := by
  rw [target_apply]
  by_cases h : r.val < 200
  · refine (outBlock_upper _ _ _ _ _ _ (⟨r.val, h⟩ : Fin 200) q r rfl).trans ?_
    exact unitRow_layerRow_congr (fun k => slabA_at m c t ⟨r.val, h⟩ k R hR) (fun d => ownRows_at m c t r d R hR)
      (fun k d => feat_at m c t k d) (fun d j => weight_at m c t d j) (fun j => bias_at m c t j) q
  · have hp : r.val - 200 < 200 := by have := r.isLt; omega
    refine (outBlock_lower _ _ _ _ _ _ (⟨r.val - 200, hp⟩ : Fin 200) q r (by show r.val = 200 + (r.val - 200); omega)).trans ?_
    exact unitRow_layerRow_congr (fun k => slabB_at m c t ⟨r.val - 200, hp⟩ k R (by show R.val = 400 * t.val + 200 + (r.val - 200); omega))
      (fun d => ownRows_at m c t r d R hR)
      (fun k d => feat_at m c t k d) (fun d j => weight_at m c t d j) (fun j => bias_at m c t j) q

/-! ## What a grid point writes back -/

/-- The output window's printed index map over the grid: block `t` along the rows, block 0 along the lanes. -/
theorem out_index : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- What point `t` writes back is block `t` of the target. -/
theorem flushed_eq (c : Dev nD) (t : Fin cfg0.N) :
    (dats (F := Ideal) m 0 c).flushed 6 t = ((cfg0.win 6).blk t).view.read (Elt Ideal) (target m c) := by
  show (cfg0.win 6).cut (grid0.coords t) ((dats m 0 c).after 6 t) = _
  rw [after_6]
  obtain ⟨e0, e1⟩ := out_index t
  have ht : t.val < 25 := by have := t.isLt; have hN : cfg0.N = 25 := N_0; omega
  funext y
  obtain ⟨r, q, rfl⟩ : ∃ (r : Fin 400) (q : Fin 512), y = ix2 r q := ⟨y 0, y 1, eq_ix2 y⟩
  have hr : r.val < 400 := r.isLt
  have hq : q.val < 512 := q.isLt
  have hemb : ((cfg0.win 6).blk t).view.emb (ix2 r q) = ix2 (⟨400 * t.val + r.val, by omega⟩ : Fin 10000) q := by
    funext a; apply Fin.ext
    match a with
    | ⟨0, _⟩ => show win0_6.index t (0 : Fin 2) * 400 + 1 * r.val = 400 * t.val + r.val; omega
    | ⟨1, _⟩ => show win0_6.index t (1 : Fin 2) * 512 + 1 * q.val = q.val; omega
  refine (block_entry m c t r q ⟨400 * t.val + r.val, by omega⟩ rfl).trans ?_
  show target m c _ = target m c (((cfg0.win 6).blk t).view.emb (ix2 r q))
  rw [hemb]

/-! ## The blocks tile the rows -/

/-- An index of the array is in point `t`'s block iff each coordinate is in the block's range on its axis. -/
theorem mem_out_block (t : Fin cfg0.N) (i : S10000x512.Idx) :
    i ∈ ((cfg0.win 6).blk t).view.set ↔ ∀ a : Fin 2, win0_6.index t a * S400x512.size a ≤ (i a).val
      ∧ (i a).val < win0_6.index t a * S400x512.size a + S400x512.size a := by
  show i ∈ ((View.whole main_v0).slice (win0_6.rect t)).set ↔ _
  rw [View.set_slice_whole, Rect.mem_set_unit]
  exact Iff.rfl

/-- Row `i 0` lies in the block of point `i 0 / 400`. -/
theorem rows_covered (i : S10000x512.Idx) :
    ∃ t : Fin cfg0.N, (cfg0.win 6).flush t = true ∧ i ∈ ((cfg0.win 6).blk t).view.set := by
  have hi0 : (i 0).val < 10000 := (i 0).isLt
  have hi1 : (i 1).val < 512 := (i 1).isLt
  have hN : cfg0.N = 25 := N_0
  refine ⟨⟨(i 0).val / 400, by omega⟩, flush0_6 _, ?_⟩
  rw [mem_out_block]
  obtain ⟨e0, e1⟩ := out_index ⟨(i 0).val / 400, by omega⟩
  intro a
  match a with
  | ⟨0, _⟩ =>
    show win0_6.index ⟨(i 0).val / 400, _⟩ (0 : Fin 2) * 400 ≤ (i 0).val ∧ (i 0).val < win0_6.index ⟨(i 0).val / 400, _⟩ (0 : Fin 2) * 400 + 400
    rw [e0]; show (i 0).val / 400 * 400 ≤ (i 0).val ∧ (i 0).val < (i 0).val / 400 * 400 + 400; omega
  | ⟨1, _⟩ =>
    show win0_6.index ⟨(i 0).val / 400, _⟩ (1 : Fin 2) * 512 ≤ (i 1).val ∧ (i 1).val < win0_6.index ⟨(i 0).val / 400, _⟩ (1 : Fin 2) * 512 + 512
    rw [e1]; omega

/-! ## The array -/

/-- The output array after the last grid point. -/
theorem out_array (c : Dev nD) : (dats (F := Ideal) m 0 c).arrAt 6 cfg0.N = target m c :=
  (dats (F := Ideal) m 0 c).arrAt_eq_of_cover 6 (target m c) (fun t _ => flushed_eq m c t) (fun i => rows_covered i)

end Cert.KernelIdeal.SageValue

end
-- ==== Proof.Ideal.ValueRun.lean ====
/-
  The idealized kernel's run with its result named: every weakly fair execution ends with the output array at the
  layer function of the launch memory's four argument arrays, and those four arrays unchanged.
-/
import proofs.«116606_g8117488189613_cont_9to1_m_843_11_alg».proof.Proof.Ideal.Run
import proofs.«116606_g8117488189613_cont_9to1_m_843_11_alg».proof.Proof.Ideal.Final

set_option maxRecDepth 16384

noncomputable section

namespace Cert.KernelIdeal.SageValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Sage

variable (m : (ℓ : Loc nD τ sig) → Buf (Elt Ideal) ℓ)

/-- The run of the idealized kernel, the result array read as `target`. -/
theorem run_value (ρ : Dev nD → PrngReg) :
    θ_run defs (onTc (τ := τ) (main (F := Ideal))) ⟨m, fun _ => 0, ρ⟩ (fun r => ∀ c : Dev nD,
      r.2.mem ((c.tc : Thread nD τ).loc main_v0) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 6).trans (out_array m c),
     ((h c).2 main_arg0 (Pipeline.mem_restRefs_of main_arg0 (by decide) (by decide))).trans (entryMem_arg0 m c),
     ((h c).1 0).trans (((dats m 0 c).arrAt_in 0 rfl _).trans ((dats_A m c 0).trans (entryMem_arg1 m c))),
     ((h c).2 main_arg2 (Pipeline.mem_restRefs_of main_arg2 (by decide) (by decide))).trans (entryMem_arg2 m c),
     ((h c).2 main_arg3 (Pipeline.mem_restRefs_of main_arg3 (by decide) (by decide))).trans (entryMem_arg3 m c)⟩)
    (run_main (F := Ideal) m ρ)

end Cert.KernelIdeal.SageValue

end
-- ==== Proof.RefSage.lean ====
/-
  The reference program's result is the layer function `Cert.Sage.sageAt` of its four arguments, when the node
  features and the adjacency matrix are finite.

  The reference forms `adj + I` (the identity as a comparison of two iotas, converted to float), multiplies by the
  features, applies the linear layer with the transposed weights, adds the bias, rectifies, and divides each row by its
  norm plus the small constant. Read one operation at a time this is `sageAt`, except that the self term sits inside the
  first product; `Cert.Sage.self_loop_sum` moves it out, which is where finiteness is used.
-/
import proofs.«116606_g8117488189613_cont_9to1_m_843_11_alg».proof.Proof.Gen.ReferenceIdeal.Read
import proofs.«116606_g8117488189613_cont_9to1_m_843_11_alg».proof.Proof.Spec

noncomputable section

namespace Cert.ReferenceIdeal.RefSage

open Cert.ReferenceIdeal Cert.ReferenceIdeal.Gen Idealize.ShloMosaic Idealize.ShloMosaic.TcCoe Idealize.SL.Sem Idealize.ShloMosaic.StableHlo
open Idealize.ShloMosaic.ValueIdx

/-- The identity matrix's entry: the comparison of the row number (plus zero) with the column number, converted to a
    float, is 1 on the diagonal and 0 off it. Both numbers are below 10000, so the 32-bit words are equal exactly when
    the numbers are. -/
theorem eye_apply (r k : Fin 10000) :
    FloatOps.uitofp (F := Ideal) .f32
        (IntOp.cmpi .eq (IntOp.addi (BitVec.ofNat 32 r.val) 0#32) (BitVec.ofNat 32 k.val))
      = if r = k then (1 : EReal) else 0 := by
  have h0 : IntOp.addi (BitVec.ofNat 32 r.val) 0#32 = BitVec.ofNat 32 r.val := by
    show BitVec.ofNat 32 r.val + 0#32 = _
    exact BitVec.add_zero _
  rw [h0]
  show (((IntOp.cmpi .eq (BitVec.ofNat 32 r.val) (BitVec.ofNat 32 k.val)).toNat : ℝ) : EReal) = _
  unfold IntOp.cmpi
  by_cases h : r = k
  · subst h
    simp
  · have hne : (BitVec.ofNat 32 r.val == BitVec.ofNat 32 k.val) = false := by
      rw [beq_eq_false_iff_ne]
      intro hc
      apply h
      apply Fin.ext
      have hv := congrArg BitVec.toNat hc
      simp only [BitVec.toNat_ofNat] at hv
      have hr := r.isLt
      have hk := k.isLt
      omega
    rw [if_neg h]
    simp [hne]

/-- The adjacency matrix plus the identity, at row `r`, column `k`. -/
theorem v6_at (x1 : (⟨S10000x10000, .f32⟩ : BufTy).Contents (Elt Ideal)) (r k : Fin 10000) :
    Read.val_main_v6 (F := Ideal) x1 (ix2 r k) = x1 (ix2 r k) + (if r = k then (1 : EReal) else 0) := by
  rw [Read.val_main_v6_apply, Read.val_main_v5_apply, Read.val_main_v4_apply, Read.val_main_v3_apply,
    Read.val_main_v2_apply, Read.val_main_c_apply, Read.val_main_v1_apply, Read.val_main_v0_apply]
  exact congrArg (x1 (ix2 r k) + ·) (eye_apply r k)

/-- The first product, `(adj + I) · x`, at node `r`, feature `d`: the neighbours' sum plus the node's own feature. -/
theorem v7_at (x0 : (⟨S10000x512, .f32⟩ : BufTy).Contents (Elt Ideal)) (x1 : (⟨S10000x10000, .f32⟩ : BufTy).Contents (Elt Ideal))
    (hx : ∀ i, ∃ v : ℝ, x0 i = (v : EReal)) (hadj : ∀ i, ∃ v : ℝ, x1 i = (v : EReal)) (r : Fin 10000) (d : Fin 512) :
    Read.val_main_v7 (F := Ideal) x0 x1 (ix2 r d)
      = (∑ k : Fin 10000, x1 (ix2 r k) * x0 (ix2 k d)) + x0 (ix2 r d) := by
  rw [Read.val_main_v7_apply]
  have hl : ∀ k : Fin 10000, Read.lidx_main_v7 (ix2 r d) k = ix2 r k := fun k =>
    funext fun a => Fin.ext (by match a with | ⟨0, _⟩ => rfl | ⟨1, _⟩ => rfl)
  have hr : ∀ k : Fin 10000, Read.ridx_main_v7 (ix2 r d) k = ix2 k d := fun k =>
    funext fun a => Fin.ext (by match a with | ⟨0, _⟩ => rfl | ⟨1, _⟩ => rfl)
  simp only [hl, hr, v6_at]
  exact Cert.Sage.self_loop_sum (fun k => x1 (ix2 r k)) (fun k => x0 (ix2 k d)) r (fun k => hadj _) (fun k => hx _)

/-- The linear layer and the rectifier at node `r`, output `j`: the product with the transposed weights, plus the
    bias, and the maximum with zero, is the layer's row. -/
theorem v13_at (x0 : (⟨S10000x512, .f32⟩ : BufTy).Contents (Elt Ideal)) (x1 : (⟨S10000x10000, .f32⟩ : BufTy).Contents (Elt Ideal))
    (x2 : (⟨S512x512, .f32⟩ : BufTy).Contents (Elt Ideal)) (x3 : (⟨S512, .f32⟩ : BufTy).Contents (Elt Ideal))
    (hx : ∀ i, ∃ v : ℝ, x0 i = (v : EReal)) (hadj : ∀ i, ∃ v : ℝ, x1 i = (v : EReal)) (r : Fin 10000) (j : Fin 512) :
    Read.val_main_v13 (F := Ideal) x0 x1 x2 x3 (ix2 r j)
      = Cert.Sage.layerRow (fun k => x1 (ix2 r k)) (fun d => x0 (ix2 r d)) (fun k d => x0 (ix2 k d))
        (fun d j => x2 (ix2 j d)) (fun j => x3 (ix1 j)) j := by
  rw [Read.val_main_v13_apply, Read.val_main_v12_apply, Read.val_main_v9_apply, Read.val_main_v11_apply,
    Read.val_main_v10_apply, Read.val_main_call0_v0_apply, Read.val_main_call0_cst_apply]
  have hl : ∀ d : Fin 512, Read.lidx_main_v9 (ix2 r j) d = ix2 r d := fun d =>
    funext fun a => Fin.ext (by match a with | ⟨0, _⟩ => rfl | ⟨1, _⟩ => rfl)
  have hr : ∀ d : Fin 512, Read.idx_main_v8 (Read.ridx_main_v9 (ix2 r j) d) = ix2 j d := fun d =>
    funext fun a => Fin.ext (by match a with | ⟨0, _⟩ => rfl | ⟨1, _⟩ => rfl)
  have hb : Read.idx_main_v10 (Read.idx_main_v11 (ix2 r j)) = ix1 j :=
    funext fun a => Fin.ext (by match a with | ⟨0, _⟩ => rfl)
  simp only [Read.val_main_v8_apply, hl, hr, hb, v7_at x0 x1 hx hadj]
  show max ((∑ d : Fin 512, ((∑ k : Fin 10000, x1 (ix2 r k) * x0 (ix2 k d)) + x0 (ix2 r d)) * x2 (ix2 j d)) + x3 (ix1 j))
      (Ideal.ofBits .f32 0x00000000#32) = _
  rw [Ideal.ofBits_zero_f32]
  rfl

/-- The norm plus the small constant, broadcast along the row: the square root of the sum of the row's squares, plus
    the constant. -/
theorem v17_at (x0 : (⟨S10000x512, .f32⟩ : BufTy).Contents (Elt Ideal)) (x1 : (⟨S10000x10000, .f32⟩ : BufTy).Contents (Elt Ideal))
    (x2 : (⟨S512x512, .f32⟩ : BufTy).Contents (Elt Ideal)) (x3 : (⟨S512, .f32⟩ : BufTy).Contents (Elt Ideal))
    (hx : ∀ i, ∃ v : ℝ, x0 i = (v : EReal)) (hadj : ∀ i, ∃ v : ℝ, x1 i = (v : EReal)) (r : Fin 10000) (j : Fin 512) :
    Read.val_main_v17 (F := Ideal) x0 x1 x2 x3 (ix2 r j)
      = Ideal.sqrt (∑ j' : Fin 512,
          (Cert.Sage.layerRow (fun k => x1 (ix2 r k)) (fun d => x0 (ix2 r d)) (fun k d => x0 (ix2 k d))
        (fun d j => x2 (ix2 j d)) (fun j => x3 (ix1 j)) j')
          * (Cert.Sage.layerRow (fun k => x1 (ix2 r k)) (fun d => x0 (ix2 r d)) (fun k d => x0 (ix2 k d))
        (fun d j => x2 (ix2 j d)) (fun j => x3 (ix1 j)) j'))
        + Cert.Sage.tiny := by
  rw [Read.val_main_v17_apply, Read.val_main_v16_apply, Read.val_main_v14_apply, Read.val_main_v15_apply,
    Read.val_main_cst_apply, Read.val_main_call1_v2_apply, Read.val_main_call1_v1_apply, Read.val_main_call1_cst_apply]
  have hi : ∀ k : Fin 512, Read.idx_main_call1_v1 (Read.idx_main_call1_v2 (Read.idx_main_v17 (ix2 r j))) k = ix2 r k :=
    fun k => funext fun a => Fin.ext (by match a with | ⟨0, _⟩ => rfl | ⟨1, _⟩ => rfl)
  simp only [hi, Read.val_main_call1_v0_apply, v13_at x0 x1 x2 x3 hx hadj]
  show Ideal.sqrt (Ideal.ofBits .f32 0x00000000#32 + ∑ k : Fin 512, _ * _) + Ideal.ofBits .f32 0x33D6BF95#32 = _
  rw [Ideal.ofBits_zero_f32, zero_add]

/-- The reference's result, as a function of the argument arrays, is the layer function. -/
theorem ref_is_sage (x0 : (⟨S10000x512, .f32⟩ : BufTy).Contents (Elt Ideal)) (x1 : (⟨S10000x10000, .f32⟩ : BufTy).Contents (Elt Ideal))
    (x2 : (⟨S512x512, .f32⟩ : BufTy).Contents (Elt Ideal)) (x3 : (⟨S512, .f32⟩ : BufTy).Contents (Elt Ideal))
    (hx : ∀ i, ∃ v : ℝ, x0 i = (v : EReal)) (hadj : ∀ i, ∃ v : ℝ, x1 i = (v : EReal)) :
    Cert.ReferenceIdeal.Read.val_main_v18 (F := Ideal) x0 x1 x2 x3 = Cert.Sage.sageAt x0 x1 x2 x3 := by
  funext i
  obtain ⟨r, j, rfl⟩ : ∃ (r : Fin 10000) (j : Fin 512), i = ix2 r j := ⟨i 0, i 1, eq_ix2 i⟩
  rw [Read.val_main_v18_apply, v13_at x0 x1 x2 x3 hx hadj, v17_at x0 x1 x2 x3 hx hadj]
  rfl

end Cert.ReferenceIdeal.RefSage

end
-- ==== Proof.Finite.lean ====
/-
  The precondition says every entry of the four float arguments is finite; here that is read off the printed
  predicate as "every entry is a real number", for the node features and the adjacency matrix (the two arrays whose
  finiteness the layer's algebra uses).
-/
import proofs.«116606_g8117488189613_cont_9to1_m_843_11_alg».proof.Defs
import proofs.«116606_g8117488189613_cont_9to1_m_843_11_alg».proof.Proof.Gen.Pre_finite_inputs
import Idealize.ShloMosaic.Lib.ReduceAll
import Idealize.ShloMosaic.Lib.ValueIdx
import Idealize.ShloMosaic.PureOps.Ideal.Laws

noncomputable section

namespace Cert.Sage.Finite

open Idealize.ShloMosaic Idealize.ShloMosaic.TcCoe Idealize.SL.Sem

/-- One extended real whose absolute value `max x (-x)` compares strictly below the pattern of `+∞` is a real number:
    the pattern `0x7F800000` denotes `⊤`, and both `⊥` and `⊤` have absolute value `⊤`. -/
theorem real_of_abs_olt_inf (x : EReal)
    (h : Ideal.cmp .olt (max x (-x)) (Ideal.ofBits .f32 0x7F800000#32) = 1#1) : ∃ v : ℝ, x = (v : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | top => simp at hlt
  | coe r => exact ⟨r, rfl⟩

/-- The rank-0 shape has exactly one index. -/
instance subsingleton_scalar_idx : Subsingleton Cert.Pre_finite_inputs.S_.Idx := ⟨fun a b => funext fun d => d.elim0⟩

/-- Under the precondition at the ideal instance, every node feature and every adjacency entry is a real number. -/
theorem reals_of_pre [hP : Cert.Pre_finite_inputs.Facts]
    (x0 : (⟨Cert.KernelIdeal.S10000x512, .f32⟩ : BufTy).Contents (Elt Ideal)) (x1 : (⟨Cert.KernelIdeal.S10000x10000, .f32⟩ : BufTy).Contents (Elt Ideal))
    (x2 : (⟨Cert.KernelIdeal.S512x512, .f32⟩ : BufTy).Contents (Elt Ideal)) (x3 : (⟨Cert.KernelIdeal.S512, .f32⟩ : BufTy).Contents (Elt Ideal))
    (h : Cert.Pre_finite_inputs.fn (F := Ideal) x0 x1 x2 x3 = (fun _ => 1#1)) :
    (∀ i, ∃ v : ℝ, x0 i = (v : EReal)) ∧ (∀ i, ∃ v : ℝ, x1 i = (v : EReal)) := by
  have h0 := congrFun h ValueIdx.ix0
  dsimp only [Cert.Pre_finite_inputs.fn, Cert.Pre_finite_inputs.fn_part1] at h0
  obtain ⟨h012, _⟩ := IntOp.andi_eq_one.1 h0
  obtain ⟨h01, _⟩ := IntOp.andi_eq_one.1 h012
  obtain ⟨e0, e1⟩ := IntOp.andi_eq_one.1 h01
  refine ⟨fun i => real_of_abs_olt_inf (x0 i) ?_, fun i => real_of_abs_olt_inf (x1 i) ?_⟩
  · exact Host.reduce_andi_all _ _ _ _ _ e0 i
  · exact Host.reduce_andi_all _ _ _ _ _ e1 i

end Cert.Sage.Finite

end
-- ==== Proof.lean ====
/-
  The certificate of the GraphSAGE layer kernel against its reference, over the extended reals.

  The kernel computes, for each block of 400 nodes, `relu((adj · x + x) · Wᵀ + b)` with each row divided by its
  Euclidean norm plus 1e-7; the reference computes `relu(((adj + I) · x) · Wᵀ + b)` normalised the same way. On the
  extended reals the two agree when `adj` and `x` are finite, since then `(adj + I) · x = adj · x + x`; that is the only
  use of the precondition. The kernel reads the adjacency matrix through two windows (the two 200-row slabs of a
  block) and the bf16 node features through two windows (all of them, and the block's own rows): each shared array's
  ownership is halved between its two windows for the duration of the region.

  The three frames: the two kernel programs by the launch theorem for windows that share arrays (the same text at the
  two float instances); the reference by its run with the result dropped. `preserves` has no conjunct (the ideal pass
  rewrote nothing). `algebraic`: both runs end at `Cert.Sage.sageAt` of the arguments.
-/
import proofs.«116606_g8117488189613_cont_9to1_m_843_11_alg».proof.Defs
import proofs.«116606_g8117488189613_cont_9to1_m_843_11_alg».proof.Proof.Gen.Kernel
import proofs.«116606_g8117488189613_cont_9to1_m_843_11_alg».proof.Proof.Gen.KernelIdeal
import proofs.«116606_g8117488189613_cont_9to1_m_843_11_alg».proof.Proof.Gen.ReferenceIdeal
import proofs.«116606_g8117488189613_cont_9to1_m_843_11_alg».proof.Proof.Gen.Pre_finite_inputs
import proofs.«116606_g8117488189613_cont_9to1_m_843_11_alg».proof.Proof.Gen.ReferenceIdeal.Run
import proofs.«116606_g8117488189613_cont_9to1_m_843_11_alg».proof.Proof.Gen.ReferenceIdeal.Read
import proofs.«116606_g8117488189613_cont_9to1_m_843_11_alg».proof.Proof.Bits.Run
import proofs.«116606_g8117488189613_cont_9to1_m_843_11_alg».proof.Proof.Ideal.Run
import proofs.«116606_g8117488189613_cont_9to1_m_843_11_alg».proof.Proof.Ideal.ValueRun
import proofs.«116606_g8117488189613_cont_9to1_m_843_11_alg».proof.Proof.RefSage
import proofs.«116606_g8117488189613_cont_9to1_m_843_11_alg».proof.Proof.Finite
import Idealize.ShloMosaic.Adequacy
import Idealize.ShloMosaic.Init

noncomputable section

namespace Cert.Proof

open Idealize.ShloMosaic Idealize.ShloMosaic.TcCoe Idealize.SL.Sem

section
variable [hKernel : Cert.Kernel.Facts] [hKernelIdeal : Cert.KernelIdeal.Facts] [hReferenceIdeal : Cert.ReferenceIdeal.Facts]
  [hPre : Cert.Pre_finite_inputs.Facts]

theorem frame_kernel : Cert.frame_Kernel := fun m ρ _ => Cert.Kernel.Sage.frame (F := Bits) m ρ

theorem frame_kernel_ideal : Cert.frame_KernelIdeal := fun m ρ _ => Cert.KernelIdeal.Sage.frame (F := Ideal) m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end at the layer function of the (agreeing, finite) arguments. -/
theorem algebraic : Cert.algebraic_KernelIdeal_ReferenceIdeal := by
  intro m ρ m' ρ' hpre hagree
  refine ⟨fun c => Cert.KernelIdeal.SageValue.target m c, Cert.KernelIdeal.SageValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨hx, hadj⟩ := Cert.Sage.Finite.reals_of_pre _ _ _ _ (hpre c)
  rw [Cert.ReferenceIdeal.Read.val_main_v18_eq, (hagree c).1, (hagree c).2.1, (hagree c).2.2.1, (hagree c).2.2.2]
  exact Cert.ReferenceIdeal.RefSage.ref_is_sage _ _ _ _ hx hadj

end

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
